-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x160 : Shape := ⟨3, ![16, 2048, 160]⟩
abbrev S160x160 : Shape := ⟨2, ![160, 160]⟩
abbrev S160 : Shape := ⟨1, ![160]⟩
abbrev S_ : Shape := ⟨0, ![]⟩

class Facts : Prop where
  bcast_S_S16x2048x160 : S_.BroadcastsInDim S16x2048x160 (![] : Fin 0 → Fin S16x2048x160.rank)
  reducesTo_S16x2048x160_S_d0_1_2 : S16x2048x160.ReducesTo [0, 1, 2] S_
  h_S_ : 0 < S_.numel
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x160 .f32) (main_arg5 : FVec F S160 .f32) (main_arg6 : FVec F S160x160 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x160 .f32 := Host.absf main_arg4
  let main_cst_6 : FVec F S_ .f32 := constant S_ .f32 0x7F800000#32
  let main_v20 : FVec F S160x160 .f32 := broadcastInDim S160x160 ![] bcast_S_S160x160 main_cst_6
  let main_v21 : IVec S160x160 1 := cmpf .olt main_v19 main_v20
  let main_c_7 : IVec S_ 1 := constantI S_ 1 1#1
  let main_v22 : IVec S_ 1 := (fun x v => Host.reduce IntOp.andi x v reducesTo_S160x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160 .f32 := Host.absf main_arg6
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg7 main_v33

def fn {F : FTy → Type} [FloatOps F] (main_arg0 : FVec F S16x2048x160 .f32) (main_arg1 : FVec F S16x2048x160 .f32) (main_arg2 : FVec F S160x160 .f32) (main_arg3 : FVec F S160 .f32) (main_arg4 : FVec F S160x160 .f32) (main_arg5 : FVec F S160 .f32) (main_arg6 : FVec F S160x160 .f32) (main_arg7 : FVec F S160 .f32) : IVec S_ 1 :=
  let main_v0 : FVec F S16x2048x160 .f32 := Host.absf main_arg0
  let main_cst : FVec F S_ .f32 := constant S_ .f32 0x7F800000#32
  let main_v1 : FVec F S16x2048x160 .f32 := broadcastInDim S16x2048x160 ![] bcast_S_S16x2048x160 main_cst
  let main_v2 : IVec S16x2048x160 1 := cmpf .olt main_v0 main_v1
  let main_c : IVec S_ 1 := constantI S_ 1 1#1
  let main_v3 : IVec S_ 1 := (fun x v => Host.reduce IntOp.andi x v reducesTo_S16x2048x160_S_d0_1_2 h_S_) main_v2 main_c
  let main_v4 : FVec F S16x2048x160 .f32 := Host.absf main_arg1
  let main_cst_0 : FVec F S_ .f32 := constant S_ .f32 0x7F800000#32
  let main_v5 : FVec F S16x2048x160 .f32 := broadcastInDim S16x2048x160 ![] bcast_S_S16x2048x160 main_cst_0
  let main_v6 : IVec S16x2048x160 1 := cmpf .olt main_v4 main_v5
  let main_c_1 : IVec S_ 1 := constantI S_ 1 1#1
  let main_v7 : IVec S_ 1 := (fun x v => Host.reduce IntOp.andi x v reducesTo_S16x2048x160_S_d0_1_2 h_S_) main_v6 main_c_1
  let main_v8 : IVec S_ 1 := andi main_v3 main_v7
  let main_v9 : FVec F S160x160 .f32 := Host.absf main_arg2
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S16x2048x160 : Shape := ⟨3, ![16, 2048, 160]⟩
abbrev S160x160 : Shape := ⟨2, ![160, 160]⟩
abbrev S160 : Shape := ⟨1, ![160]⟩
abbrev S1x160 : Shape := ⟨2, ![1, 160]⟩
abbrev S1x512x160 : Shape := ⟨3, ![1, 512, 160]⟩
abbrev S512x160 : Shape := ⟨2, ![512, 160]⟩
abbrev S1x2048x160 : Shape := ⟨3, ![1, 2048, 160]⟩
abbrev S2048x160 : Shape := ⟨2, ![2048, 160]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 14
  | .vmem => 20
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S1x160, .f32⟩
  | .hbm, ⟨9, _⟩ => ⟨S1x160, .f32⟩
  | .hbm, ⟨10, _⟩ => ⟨S1x160, .f32⟩
  | .hbm, ⟨11, _⟩ => ⟨S16x2048x160, .bf16⟩
  | .hbm, ⟨12, _⟩ => ⟨S16x2048x160, .bf16⟩
  | .hbm, ⟨13, _⟩ => ⟨S16x2048x160, .f32⟩
  | .local _ .vmem, ⟨0, _⟩ => ⟨S1x512x160, .f32⟩
  | .local _ .vmem, ⟨1, _⟩ => ⟨S1x512x160, .f32⟩
  | .local _ .vmem, ⟨2, _⟩ => ⟨S160x160, .f32⟩
  | .local _ .vmem, ⟨3, _⟩ => ⟨S1x160, .f32⟩
  | .local _ .vmem, ⟨4, _⟩ => ⟨S160x160, .f32⟩
  | .local _ .vmem, ⟨5, _⟩ => ⟨S1x160, .f32⟩
  | .local _ .vmem, ⟨6, _⟩ => ⟨S1x512x160, .bf16⟩
  | .local _ .vmem, ⟨7, _⟩ => ⟨S1x512x160, .bf16⟩
  | .local _ .vmem, ⟨8, _⟩ => ⟨S1x512x160, .bf16⟩
  | .local _ .vmem, ⟨9, _⟩ => ⟨S1x512x160, .bf16⟩
  | .local _ .vmem, ⟨10, _⟩ => ⟨S1x2048x160, .f32⟩
  | .local _ .vmem, ⟨11, _⟩ => ⟨S1x2048x160, .f32⟩
  | .local _ .vmem, ⟨12, _⟩ => ⟨S160x160, .f32⟩
  | .local _ .vmem, ⟨13, _⟩ => ⟨S1x160, .f32⟩
  | .local _ .vmem, ⟨14, _⟩ => ⟨S1x2048x160, .bf16⟩
  | .local _ .vmem, ⟨15, _⟩ => ⟨S1x2048x160, .bf16⟩
  | .local _ .vmem, ⟨16, _⟩ => ⟨S1x2048x160, .bf16⟩
  | .local _ .vmem, ⟨17, _⟩ => ⟨S1x2048x160, .bf16⟩
  | .local _ .vmem, ⟨18, _⟩ => ⟨S1x2048x160, .f32⟩
  | .local _ .vmem, ⟨19, _⟩ => ⟨S1x2048x160, .f32⟩
  | _, _ => ⟨S16x2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x160 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x160 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S160x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x160 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x160 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S160_S1x160 : S160.ShapeCasts S1x160
  inb_S1x512x160_S1x512x160_0_0_0 : ∀ a, (![0, 0, 0] : Fin 3 → Nat) a + S1x512x160.size a ≤ S1x512x160.size a
  h_S1x512x160 : 0 < S1x512x160.numel
  shapeCasts_S1x512x160_S512x160 : S1x512x160.ShapeCasts S512x160
  inb_S160x160_S160x160_0_0 : ∀ a, (![0, 0] : Fin 2 → Nat) a + S160x160.size a ≤ S160x160.size a
  h_S160x160 : 0 < S160x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S512x160 : S1x160.Broadcasts S512x160
  bitsLt_bf16_f32 : FTy.bits .bf16 < FTy.bits .f32
  shapeCasts_S512x160_S1x512x160 : S512x160.ShapeCasts S1x512x160
  packedbf16_S1x512x160_S1x512x160_0_0_0 : (Rect.unit (s := S1x512x160) ![0, 0, 0] S1x512x160.size inb_S1x512x160_S1x512x160_0_0_0).PackedRows (EltTy.packing .bf16)
  inb_S1x2048x160_S1x2048x160_0_0_0 : ∀ a, (![0, 0, 0] : Fin 3 → Nat) a + S1x2048x160.size a ≤ S1x2048x160.size a
  h_S1x2048x160 : 0 < S1x2048x160.numel
  shapeCasts_S1x2048x160_S2048x160 : S1x2048x160.ShapeCasts S2048x160
  broadcasts_S1x160_S2048x160 : S1x160.Broadcasts S2048x160
  reduces_S2048x2048_S2048 : S2048x2048.Reduces [1] S2048
  shapeCasts_S2048_S2048x1 : S2048.ShapeCasts S2048x1
  broadcasts_S2048x1_S2048x2048 : S2048x1.Broadcasts S2048x2048
  broadcasts_S2048x1_S2048x160 : S2048x1.Broadcasts S2048x160
  shapeCasts_S2048x160_S1x2048x160 : S2048x160.ShapeCasts S1x2048x160
  dot_S512x160_S160x160_S512x160_1_0_0_1_n_n_wf : DotDims.WF S512x160 S160x160 S512x160 [1] [0] [0] [1] [] []
  dot_S2048x160_S160x160_S2048x160_1_0_0_1_n_n_wf : DotDims.WF S2048x160 S160x160 S2048x160 [1] [0] [0] [1] [] []
  dot_S2048x160_S2048x160_S2048x2048_1_1_0_0_n_n_wf : DotDims.WF S2048x160 S2048x160 S2048x2048 [1] [1] [0] [0] [] []
  dot_S2048x2048_S2048x160_S2048x160_1_0_0_1_n_n_wf : DotDims.WF S2048x2048 S2048x160 S2048x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x160.size a ≤ S16x2048x160.size a
  hwx0_0 : ∀ i : grid0.Coords, EltTy.bits .f32 = 32 ∨ (Rect.block (s := S16x2048x160) S1x512x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x160.size a ≤ S160x160.size a
  hwx0_1 : ∀ i : grid0.Coords, EltTy.bits .f32 = 32 ∨ (Rect.block (s := S160x160) S160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x160.size a ≤ S160x160.size a
  hwx0_3 : ∀ i : grid0.Coords, EltTy.bits .f32 = 32 ∨ (Rect.block (s := S160x160) S160x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x160.size a ≤ S16x2048x160.size a
  hwx0_5 : ∀ i : grid0.Coords, EltTy.bits .bf16 = 32 ∨ (Rect.block (s := S16x2048x160) S1x512x160.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x160.size a ≤ S16x2048x160.size a
  hwx0_6 : ∀ i : grid0.Coords, EltTy.bits .bf16 = 32 ∨ (Rect.block (s := S16x2048x160) S1x512x160.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x160.size a ≤ S16x2048x160.size a
  hwx1_0 : ∀ i : grid1.Coords, EltTy.bits .f32 = 32 ∨ (Rect.block (s := S16x2048x160) S1x2048x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x160.size a ≤ S160x160.size a
  hwx1_1 : ∀ i : grid1.Coords, EltTy.bits .f32 = 32 ∨ (Rect.block (s := S160x160) S160x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x160.size a ≤ S16x2048x160.size a
  hwx1_3 : ∀ i : grid1.Coords, EltTy.bits .bf16 = 32 ∨ (Rect.block (s := S16x2048x160) S1x2048x160.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x160.size a ≤ S16x2048x160.size a
  hwx1_4 : ∀ i : grid1.Coords, EltTy.bits .bf16 = 32 ∨ (Rect.block (s := S16x2048x160) S1x2048x160.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x160.size a ≤ S16x2048x160.size a
  hwx1_5 : ∀ i : grid1.Coords, EltTy.bits .f32 = 32 ∨ (Rect.block (s := S16x2048x160) S1x2048x160.size (cc1_transform_5 i) (hinb1_5 i)).WholeWords (EltTy.packing .f32)

variable [Facts₀]

def dot_S512x160_S160x160_S512x160_1_0_0_1_n_n : DotDims S512x160 S160x160 S512x160 where
  lhsContracting := [1]
  rhsContracting := [0]
  lhsNonContracting := [0]
  rhsNonContracting := [1]
  lhsBatch := []
  rhsBatch := []
  wf := dot_S512x160_S160x160_S512x160_1_0_0_1_n_n_wf
def dot_S2048x160_S160x160_S2048x160_1_0_0_1_n_n : DotDims S2048x160 S160x160 S2048x160 where
  lhsContracting := [1]
  rhsContracting := [0]
  lhsNonContracting := [0]
  rhsNonContracting := [1]
  lhsBatch := []
  rhsBatch := []
  wf := dot_S2048x160_S160x160_S2048x160_1_0_0_1_n_n_wf
def dot_S2048x160_S2048x160_S2048x2048_1_1_0_0_n_n : DotDims S2048x160 S2048x160 S2048x2048 where
  lhsContracting := [1]
  rhsContracting := [1]
  lhsNonContracting := [0]
  rhsNonContracting := [0]
  lhsBatch := []
  rhsBatch := []
  wf := dot_S2048x160_S2048x160_S2048x2048_1_1_0_0_n_n_wf
def dot_S2048x2048_S2048x160_S2048x160_1_0_0_1_n_n : DotDims S2048x2048 S2048x160 S2048x160 where
  lhsContracting := [1]
  rhsContracting := [0]
  lhsNonContracting := [0]
  rhsNonContracting := [1]
  lhsBatch := []
  rhsBatch := []
  wf := dot_S2048x2048_S2048x160_S2048x160_1_0_0_1_n_n_wf

abbrev win0_0 : Pipeline.Window sig grid0 :=
  Pipeline.Window.ofSpec (Memref.whole main_arg1) S1x512x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S160x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S160x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x512x160.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x512x160.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x2048x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S160x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x2048x160.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x2048x160.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x2048x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x2048x160 : Shape := ⟨3, ![16, 2048, 160]⟩
abbrev S160x160 : Shape := ⟨2, ![160, 160]⟩
abbrev S160 : Shape := ⟨1, ![160]⟩
abbrev S1x1x160 : Shape := ⟨3, ![1, 1, 160]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S16x2048x160, .f32⟩
  | .hbm, ⟨9, _⟩ => ⟨S1x1x160, .f32⟩
  | .hbm, ⟨10, _⟩ => ⟨S16x2048x160, .f32⟩
  | .hbm, ⟨11, _⟩ => ⟨S16x2048x160, .f32⟩
  | .hbm, ⟨12, _⟩ => ⟨S16x2048x160, .f32⟩
  | .hbm, ⟨13, _⟩ => ⟨S1x1x160, .f32⟩
  | .hbm, ⟨14, _⟩ => ⟨S16x2048x160, .f32⟩
  | .hbm, ⟨15, _⟩ => ⟨S16x2048x160, .f32⟩
  | .hbm, ⟨16, _⟩ => ⟨S16x2048x160, .f32⟩
  | .hbm, ⟨17, _⟩ => ⟨S1x1x160, .f32⟩
  | .hbm, ⟨18, _⟩ => ⟨S16x2048x160, .f32⟩
  | .hbm, ⟨19, _⟩ => ⟨S16x2048x160, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x160, .f32⟩
  | .hbm, ⟨36, _⟩ => ⟨S16x2048x160, .f32⟩
  | _, _ => ⟨S16x2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S160_S1x1x160_2 : S160.BroadcastsInDim S1x1x160 (![2] : Fin 1 → Fin S1x1x160.rank)
  bcast_S1x1x160_S16x2048x160_0_1_2 : S1x1x160.BroadcastsInDim S16x2048x160 (![0, 1, 2] : Fin 3 → Fin S16x2048x160.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x160_S160x160_S16x2048x160_2_0_01_1_n_n_wf : DotDims.WF S16x2048x160 S160x160 S16x2048x160 [2] [0] [0, 1] [1] [] []
  dot_S16x2048x160_S16x2048x160_S16x2048x2048_2_2_1_1_0_0_wf : DotDims.WF S16x2048x160 S16x2048x160 S16x2048x2048 [2] [2] [1] [1] [0] [0]
  dot_S16x2048x2048_S16x2048x160_S16x2048x160_2_1_1_2_0_0_wf : DotDims.WF S16x2048x2048 S16x2048x160 S16x2048x160 [2] [1] [1] [2] [0] [0]

variable [Facts₀]

def dot_S16x2048x160_S160x160_S16x2048x160_2_0_01_1_n_n : DotDims S16x2048x160 S160x160 S16x2048x160 where
  lhsContracting := [2]
  rhsContracting := [0]
  lhsNonContracting := [0, 1]
  rhsNonContracting := [1]
  lhsBatch := []
  rhsBatch := []
  wf := dot_S16x2048x160_S160x160_S16x2048x160_2_0_01_1_n_n_wf
def dot_S16x2048x160_S16x2048x160_S16x2048x2048_2_2_1_1_0_0 : DotDims S16x2048x160 S16x2048x160 S16x2048x2048 where
  lhsContracting := [2]
  rhsContracting := [2]
  lhsNonContracting := [1]
  rhsNonContracting := [1]
  lhsBatch := [0]
  rhsBatch := [0]
  wf := dot_S16x2048x160_S16x2048x160_S16x2048x2048_2_2_1_1_0_0_wf
def dot_S16x2048x2048_S16x2048x160_S16x2048x160_2_1_1_2_0_0 : DotDims S16x2048x2048 S16x2048x160 S16x2048x160 where
  lhsContracting := [2]
  rhsContracting := [1]
  lhsNonContracting := [1]
  rhsNonContracting := [2]
  lhsBatch := [0]
  rhsBatch := [0]
  wf := dot_S16x2048x2048_S16x2048x160_S16x2048x160_2_1_1_2_0_0_wf

class Facts : Prop extends Facts₀ where

variable [Facts]
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Spec.lean ====
/-
  Single-head cross-attention with a residual, as functions of whole arrays over the extended reals.

  Arrays: `x`, `y` of shape [16, 2048, 160] (batch, position, feature); three weight matrices [160, 160]
  and three biases [160]. The query, key and value are the linear projections
      q = x · Wq + bq,   k = y · Wk + bk,   v = y · Wv + bv
  (a row of the array times the matrix, plus the bias). The score of query position `i` against key position
  `j` in batch `n` is the inner product of the two feature rows; a row of scores is turned into weights by
  subtracting the row's maximum and exponentiating; the weights' sum over `j` is the row's denominator.

  Two arrangements of the last step are stated here:
    * normalising AFTER the product with the values:  (Σ_j w_j · v_j) · (1 / Σ_j w_j) + x
    * normalising BEFORE it:                            Σ_j (w_j / Σ_j w_j) · v_j + x
  They agree wherever every input is a finite real (module `Law`): then every weight is a positive real and
  the denominator a positive real, and the reciprocal factors out of the finite sum.
-/
import Idealize.ShloMosaic.PureOps.Ideal
import Idealize.ShloMosaic.PureOps.Ideal.Laws
import Idealize.ShloMosaic.Lib.ValueIdx
import proofs.«167128_g83305185673742_cont_9to1c4b_147_9_alg».proof.Proof.LibReal

noncomputable section

namespace Cert.Attn

open Idealize.ShloMosaic Idealize.ShloMosaic.ValueIdx Cert.LibReal
open scoped BigOperators

/-- An array [16, 2048, 160] of extended reals: batch, position, feature. -/
abbrev Arr3 : Type := (⟨3, ![16, 2048, 160]⟩ : Shape).Idx → EReal
/-- A weight matrix [160, 160]: input feature, output feature. -/
abbrev Mat : Type := (⟨2, ![160, 160]⟩ : Shape).Idx → EReal
/-- A bias [160]. -/
abbrev Bias : Type := (⟨1, ![160]⟩ : Shape).Idx → EReal

/-- The linear projection of every feature row: `(a · W + b)[n, i, e] = Σ_d a[n, i, d] · W[d, e] + b[e]`. -/
def proj (a : Arr3) (W : Mat) (b : Bias) : Arr3 :=
  fun t => (∑ d : Fin 160, a (ix3 (t 0) (t 1) d) * W (ix2 d (t 2))) + b (ix1 (t 2))

/-- The score of query row `i` against key row `j` of batch `n`: the inner product of the two feature rows. -/
def score (q k : Arr3) (n : Fin 16) (i j : Fin 2048) : EReal :=
  ∑ e : Fin 160, q (ix3 n i e) * k (ix3 n j e)

/-- The largest score of query row `i`: the maximum folded from `-∞` over the key positions. -/
def rowMax (q k : Arr3) (n : Fin 16) (i : Fin 2048) : EReal :=
  (Finset.univ : Finset (Fin 2048)).fold max ⊥ (fun j => score q k n i j)

/-- The unnormalised weight of key position `j` for query row `i`: the exponential of the score less the row's maximum. -/
def weight (q k : Arr3) (n : Fin 16) (i j : Fin 2048) : EReal :=
  Ideal.exp (score q k n i j - rowMax q k n i)

/-- The row's denominator: the sum of its weights. -/
def denom (q k : Arr3) (n : Fin 16) (i : Fin 2048) : EReal :=
  ∑ j : Fin 2048, weight q k n i j

/-- Attention normalised AFTER the product with the values, plus the residual: the weighted sum of the value rows is
    formed with the unnormalised weights and then multiplied by the reciprocal of the denominator (`one` is the
    numerator of that reciprocal, the word a program spells for 1). -/
def attnLate (one : EReal) (x q k v : Arr3) : Arr3 :=
  fun t => (∑ j : Fin 2048, weight q k (t 0) (t 1) j * v (ix3 (t 0) j (t 2))) * Ideal.div one (denom q k (t 0) (t 1)) + x t

/-- Attention normalised BEFORE the product with the values, plus the residual: each weight is first divided by the
    denominator (a softmax row), then the value rows are summed with those. -/
def attnEarly (x q k v : Arr3) : Arr3 :=
  fun t => (∑ j : Fin 2048, Ideal.div (weight q k (t 0) (t 1) j) (denom q k (t 0) (t 1)) * v (ix3 (t 0) j (t 2))) + x t

/-! ## Finiteness runs through every stage -/

/-- Every entry of an array is a finite real. -/
def AllReal {ι : Type} (a : ι → EReal) : Prop := ∀ i, IsReal (a i)

/-- A projection of finite arrays is finite. -/
theorem allReal_proj {a : Arr3} {W : Mat} {b : Bias} (ha : AllReal a) (hW : AllReal W) (hb : AllReal b) :
    AllReal (proj a W b) := fun t =>
  (IsReal.sum_univ _ fun d => (ha _).mul (hW _)).add (hb _)

/-- A score of finite arrays is a finite real. -/
theorem isReal_score {q k : Arr3} (hq : AllReal q) (hk : AllReal k) (n : Fin 16) (i j : Fin 2048) :
    IsReal (score q k n i j) :=
  IsReal.sum_univ _ fun e => (hq _).mul (hk _)

/-- The row maximum of finite scores is a finite real (the row is not empty). -/
theorem isReal_rowMax {q k : Arr3} (hq : AllReal q) (hk : AllReal k) (n : Fin 16) (i : Fin 2048) :
    IsReal (rowMax q k n i) :=
  IsReal.fold_max Finset.univ ⟨0, Finset.mem_univ _⟩ _ fun j _ => isReal_score hq hk n i j

/-- Every weight is a positive finite real. -/
theorem isPosReal_weight {q k : Arr3} (hq : AllReal q) (hk : AllReal k) (n : Fin 16) (i j : Fin 2048) :
    IsPosReal (weight q k n i j) :=
  ((isReal_score hq hk n i j).sub (isReal_rowMax hq hk n i)).exp_pos

/-- The denominator is a positive finite real. -/
theorem isPosReal_denom {q k : Arr3} (hq : AllReal q) (hk : AllReal k) (n : Fin 16) (i : Fin 2048) :
    IsPosReal (denom q k n i) :=
  haveI : Nonempty (Fin 2048) := ⟨0⟩
  IsPosReal.sum_univ _ fun j => isPosReal_weight hq hk n i j

end Cert.Attn

end
-- ==== Proof.LibColumn.lean ====
/-
  A keepdims column read at an index. A row reduction of an `[a, b]` array leaves a vector `[a]`; a program that
  keeps the reduced axis casts it to a column `[a, 1]` and broadcasts the column back over the row, `[a, b']`.
  Read at `(p, c)`, both steps return the vector's entry of row `p`: a shape cast keeps the row-major position
  (`p · 1 + 0 = p`), and a broadcast reads the operand's unit axis at `0`.
-/
import Idealize.ShloMosaic.Lib.ValueIdx
import Idealize.ShloMosaic.Lib.Pipeline.Value

noncomputable section

namespace Cert.LibColumn

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KernelPay.lean ====
/-
  The two kernel bodies' arithmetic, read at an index at the ideal values.

  First body (one block of 512 rows of one batch): the key block and the value block are each the block's rows
  times a weight matrix plus a bias row; narrowing to bf16 is the identity at the ideal values.
  Second body (all 2048 query rows of one batch against all 2048 key and value rows of that batch): the query block
  is the rows times `Wq` plus `bq`; the scores are the products of query rows with key rows; each row's maximum
  is folded from `-∞`, its weights are the exponentials of the scores less that maximum, its denominator their sum;
  the weighted sum of the value rows is multiplied by the reciprocal of the denominator and the input row is added.

  Each `tpu.matmul` into a zero accumulator is a plain sum over its one contracted axis, re-indexed through that
  axis's coordinate; a lane reduction is a fold or a sum over the reduced axis's coordinate; a kept reduced axis
  (a column `[2048, 1]`) broadcast back over a row returns the row's entry.
-/
import proofs.«167128_g83305185673742_cont_9to1c4b_147_9_alg».proof.Proof.Gen.KernelIdeal.Skeleton
import proofs.«167128_g83305185673742_cont_9to1c4b_147_9_alg».proof.Proof.Spec
import proofs.«167128_g83305185673742_cont_9to1c4b_147_9_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Attn Cert.LibReal Cert.LibColumn
open Idealize.ShloMosaic Idealize.ShloMosaic.ValueIdx
open scoped BigOperators

/-! ## The four matrix products, each a sum over its one contracted axis -/

/-! ### Rows [512, 160] times a matrix [160, 160] -/

theorem lhs512_0 (i : S512x160.Idx) (q : dot_S512x160_S160x160_S512x160_1_0_0_1_n_n.contr.Idx) :
    (dot_S512x160_S160x160_S512x160_1_0_0_1_n_n.lhsIdx i q 0).val = (i 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl
theorem lhs512_1 (i : S512x160.Idx) (q : dot_S512x160_S160x160_S512x160_1_0_0_1_n_n.contr.Idx) :
    (dot_S512x160_S160x160_S512x160_1_0_0_1_n_n.lhsIdx i q 1).val = (q ⟨0, by decide⟩).val :=
  dot_S512x160_S160x160_S512x160_1_0_0_1_n_n.lhsIdx_val_of_single rfl i q
theorem rhs512_0 (i : S512x160.Idx) (q : dot_S512x160_S160x160_S512x160_1_0_0_1_n_n.contr.Idx) :
    (dot_S512x160_S160x160_S512x160_1_0_0_1_n_n.rhsIdx i q 0).val = (q ⟨0, by decide⟩).val :=
  dot_S512x160_S160x160_S512x160_1_0_0_1_n_n.rhsIdx_val_of_single rfl i q
theorem rhs512_1 (i : S512x160.Idx) (q : dot_S512x160_S160x160_S512x160_1_0_0_1_n_n.contr.Idx) :
    (dot_S512x160_S160x160_S512x160_1_0_0_1_n_n.rhsIdx i q 1).val = (i 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl

/-- Entry `(r, e)` of the product is the sum over the feature `d` of row `r` at `d` times the matrix at `(d, e)`. -/
theorem matmul512 (A : FVec Ideal S512x160 .f32) (B : FVec Ideal S160x160 .f32) (r : Fin 512) (e : Fin 160) :
    matmul dot_S512x160_S160x160_S512x160_1_0_0_1_n_n none A B (constant (F := Ideal) S512x160 .f32 0x00000000#32) (ix2 r e)
      = ∑ d : Fin 160, A (ix2 r d) * B (ix2 d e) := by
  refine (Ideal.matmul_constant_zero_apply dot_S512x160_S160x160_S512x160_1_0_0_1_n_n none A B (ix2 r e)).trans ?_
  rw [← Equiv.sum_comp (contrEquiv1 dot_S512x160_S160x160_S512x160_1_0_0_1_n_n 160 rfl rfl).symm]
  refine Finset.sum_congr rfl fun k _ => ?_
  have hk := contrEquiv1_symm_val dot_S512x160_S160x160_S512x160_1_0_0_1_n_n 160 rfl rfl k
  have el : dot_S512x160_S160x160_S512x160_1_0_0_1_n_n.lhsIdx (ix2 r e) ((contrEquiv1 dot_S512x160_S160x160_S512x160_1_0_0_1_n_n 160 rfl rfl).symm k) = ix2 r k := funext fun a => Fin.ext (by
    match a with
    | ⟨0, _⟩ => exact lhs512_0 _ _
    | ⟨1, _⟩ => exact (lhs512_1 _ _).trans hk)
  have er : dot_S512x160_S160x160_S512x160_1_0_0_1_n_n.rhsIdx (ix2 r e) ((contrEquiv1 dot_S512x160_S160x160_S512x160_1_0_0_1_n_n 160 rfl rfl).symm k) = ix2 k e := funext fun a => Fin.ext (by
    match a with
    | ⟨0, _⟩ => exact (rhs512_0 _ _).trans hk
    | ⟨1, _⟩ => exact rhs512_1 _ _)
  rw [el, er]

/-! ### Rows [2048, 160] times a matrix [160, 160] -/

theorem lhs2048_0 (i : S2048x160.Idx) (q : dot_S2048x160_S160x160_S2048x160_1_0_0_1_n_n.contr.Idx) :
    (dot_S2048x160_S160x160_S2048x160_1_0_0_1_n_n.lhsIdx i q 0).val = (i 0).val := by
  unfold DotDims.lhsIdx
  rw [dif_neg (show ¬(0 : Fin S2048x160.rank) ∈ dot_S2048x160_S160x160_S2048x160_1_0_0_1_n_n.lhsBatch by decide), dif_pos (show (0 : Fin S2048x160.rank) ∈ dot_S2048x160_S160x160_S2048x160_1_0_0_1_n_n.lhsNonContracting by decide)]
  rfl
theorem lhs2048_1 (i : S2048x160.Idx) (q : dot_S2048x160_S160x160_S2048x160_1_0_0_1_n_n.contr.Idx) :
    (dot_S2048x160_S160x160_S2048x160_1_0_0_1_n_n.lhsIdx i q 1).val = (q ⟨0, by decide⟩).val :=
  dot_S2048x160_S160x160_S2048x160_1_0_0_1_n_n.lhsIdx_val_of_single rfl i q
theorem rhs2048_0 (i : S2048x160.Idx) (q : dot_S2048x160_S160x160_S2048x160_1_0_0_1_n_n.contr.Idx) :
    (dot_S2048x160_S160x160_S2048x160_1_0_0_1_n_n.rhsIdx i q 0).val = (q ⟨0, by decide⟩).val :=
  dot_S2048x160_S160x160_S2048x160_1_0_0_1_n_n.rhsIdx_val_of_single rfl i q
theorem rhs2048_1 (i : S2048x160.Idx) (q : dot_S2048x160_S160x160_S2048x160_1_0_0_1_n_n.contr.Idx) :
    (dot_S2048x160_S160x160_S2048x160_1_0_0_1_n_n.rhsIdx i q 1).val = (i 1).val := by
  unfold DotDims.rhsIdx
  rw [dif_neg (show ¬(1 : Fin S160x160.rank) ∈ dot_S2048x160_S160x160_S2048x160_1_0_0_1_n_n.rhsBatch by decide), dif_pos (show (1 : Fin S160x160.rank) ∈ dot_S2048x160_S160x160_S2048x160_1_0_0_1_n_n.rhsNonContracting by decide)]
  rfl

/-- Entry `(r, e)` of the product is the sum over the feature `d` of row `r` at `d` times the matrix at `(d, e)`. -/
theorem matmul2048 (A : FVec Ideal S2048x160 .f32) (B : FVec Ideal S160x160 .f32) (r : Fin 2048) (e : Fin 160) :
    matmul dot_S2048x160_S160x160_S2048x160_1_0_0_1_n_n none A B (constant (F := Ideal) S2048x160 .f32 0x00000000#32) (ix2 r e)
      = ∑ d : Fin 160, A (ix2 r d) * B (ix2 d e) := by
  refine (Ideal.matmul_constant_zero_apply dot_S2048x160_S160x160_S2048x160_1_0_0_1_n_n none A B (ix2 r e)).trans ?_
  rw [← Equiv.sum_comp (contrEquiv1 dot_S2048x160_S160x160_S2048x160_1_0_0_1_n_n 160 rfl rfl).symm]
  refine Finset.sum_congr rfl fun k _ => ?_
  have hk := contrEquiv1_symm_val dot_S2048x160_S160x160_S2048x160_1_0_0_1_n_n 160 rfl rfl k
  have el : dot_S2048x160_S160x160_S2048x160_1_0_0_1_n_n.lhsIdx (ix2 r e) ((contrEquiv1 dot_S2048x160_S160x160_S2048x160_1_0_0_1_n_n 160 rfl rfl).symm k) = ix2 r k := funext fun a => Fin.ext (by
    match a with
    | ⟨0, _⟩ => exact lhs2048_0 _ _
    | ⟨1, _⟩ => exact (lhs2048_1 _ _).trans hk)
  have er : dot_S2048x160_S160x160_S2048x160_1_0_0_1_n_n.rhsIdx (ix2 r e) ((contrEquiv1 dot_S2048x160_S160x160_S2048x160_1_0_0_1_n_n 160 rfl rfl).symm k) = ix2 k e := funext fun a => Fin.ext (by
    match a with
    | ⟨0, _⟩ => exact (rhs2048_0 _ _).trans hk
    | ⟨1, _⟩ => exact rhs2048_1 _ _)
  rw [el, er]

/-! ### Query rows [2048, 160] against key rows [2048, 160], both contracted on the feature axis -/

theorem lhsQK_0 (i : S2048x2048.Idx) (q : dot_S2048x160_S2048x160_S2048x2048_1_1_0_0_n_n.contr.Idx) :
    (dot_S2048x160_S2048x160_S2048x2048_1_1_0_0_n_n.lhsIdx i q 0).val = (i 0).val := by
  unfold DotDims.lhsIdx
  rw [dif_neg (show ¬(0 : Fin S2048x160.rank) ∈ dot_S2048x160_S2048x160_S2048x2048_1_1_0_0_n_n.lhsBatch by decide), dif_pos (show (0 : Fin S2048x160.rank) ∈ dot_S2048x160_S2048x160_S2048x2048_1_1_0_0_n_n.lhsNonContracting by decide)]
  rfl
theorem lhsQK_1 (i : S2048x2048.Idx) (q : dot_S2048x160_S2048x160_S2048x2048_1_1_0_0_n_n.contr.Idx) :
    (dot_S2048x160_S2048x160_S2048x2048_1_1_0_0_n_n.lhsIdx i q 1).val = (q ⟨0, by decide⟩).val :=
  dot_S2048x160_S2048x160_S2048x2048_1_1_0_0_n_n.lhsIdx_val_of_single rfl i q
theorem rhsQK_0 (i : S2048x2048.Idx) (q : dot_S2048x160_S2048x160_S2048x2048_1_1_0_0_n_n.contr.Idx) :
    (dot_S2048x160_S2048x160_S2048x2048_1_1_0_0_n_n.rhsIdx i q 0).val = (i 1).val := by
  unfold DotDims.rhsIdx
  rw [dif_neg (show ¬(0 : Fin S2048x160.rank) ∈ dot_S2048x160_S2048x160_S2048x2048_1_1_0_0_n_n.rhsBatch by decide), dif_pos (show (0 : Fin S2048x160.rank) ∈ dot_S2048x160_S2048x160_S2048x2048_1_1_0_0_n_n.rhsNonContracting by decide)]
  rfl
theorem rhsQK_1 (i : S2048x2048.Idx) (q : dot_S2048x160_S2048x160_S2048x2048_1_1_0_0_n_n.contr.Idx) :
    (dot_S2048x160_S2048x160_S2048x2048_1_1_0_0_n_n.rhsIdx i q 1).val = (q ⟨0, by decide⟩).val :=
  dot_S2048x160_S2048x160_S2048x2048_1_1_0_0_n_n.rhsIdx_val_of_single rfl i q

/-- Entry `(i, j)` is the inner product of query row `i` and key row `j`. -/
theorem matmulQK (A B : FVec Ideal S2048x160 .bf16) (i j : Fin 2048) :
    matmul dot_S2048x160_S2048x160_S2048x2048_1_1_0_0_n_n none A B (constant (F := Ideal) S2048x2048 .f32 0x00000000#32) (ix2 i j)
      = ∑ e : Fin 160, A (ix2 i e) * B (ix2 j e) := by
  refine (Ideal.matmul_constant_zero_apply dot_S2048x160_S2048x160_S2048x2048_1_1_0_0_n_n none A B (ix2 i j)).trans ?_
  rw [← Equiv.sum_comp (contrEquiv1 dot_S2048x160_S2048x160_S2048x2048_1_1_0_0_n_n 160 rfl rfl).symm]
  refine Finset.sum_congr rfl fun k _ => ?_
  have hk := contrEquiv1_symm_val dot_S2048x160_S2048x160_S2048x2048_1_1_0_0_n_n 160 rfl rfl k
  have el : dot_S2048x160_S2048x160_S2048x2048_1_1_0_0_n_n.lhsIdx (ix2 i j) ((contrEquiv1 dot_S2048x160_S2048x160_S2048x2048_1_1_0_0_n_n 160 rfl rfl).symm k) = ix2 i k := funext fun a => Fin.ext (by
    match a with
    | ⟨0, _⟩ => exact lhsQK_0 _ _
    | ⟨1, _⟩ => exact (lhsQK_1 _ _).trans hk)
  have er : dot_S2048x160_S2048x160_S2048x2048_1_1_0_0_n_n.rhsIdx (ix2 i j) ((contrEquiv1 dot_S2048x160_S2048x160_S2048x2048_1_1_0_0_n_n 160 rfl rfl).symm k) = ix2 j k := funext fun a => Fin.ext (by
    match a with
    | ⟨0, _⟩ => exact rhsQK_0 _ _
    | ⟨1, _⟩ => exact (rhsQK_1 _ _).trans hk)
  rw [el, er]

/-! ### Weight rows [2048, 2048] times value rows [2048, 160] -/

theorem lhsPV_0 (i : S2048x160.Idx) (q : dot_S2048x2048_S2048x160_S2048x160_1_0_0_1_n_n.contr.Idx) :
    (dot_S2048x2048_S2048x160_S2048x160_1_0_0_1_n_n.lhsIdx i q 0).val = (i 0).val := by
  unfold DotDims.lhsIdx
  rw [dif_neg (show ¬(0 : Fin S2048x2048.rank) ∈ dot_S2048x2048_S2048x160_S2048x160_1_0_0_1_n_n.lhsBatch by decide), dif_pos (show (0 : Fin S2048x2048.rank) ∈ dot_S2048x2048_S2048x160_S2048x160_1_0_0_1_n_n.lhsNonContracting by decide)]
  rfl
theorem lhsPV_1 (i : S2048x160.Idx) (q : dot_S2048x2048_S2048x160_S2048x160_1_0_0_1_n_n.contr.Idx) :
    (dot_S2048x2048_S2048x160_S2048x160_1_0_0_1_n_n.lhsIdx i q 1).val = (q ⟨0, by decide⟩).val :=
  dot_S2048x2048_S2048x160_S2048x160_1_0_0_1_n_n.lhsIdx_val_of_single rfl i q
theorem rhsPV_0 (i : S2048x160.Idx) (q : dot_S2048x2048_S2048x160_S2048x160_1_0_0_1_n_n.contr.Idx) :
    (dot_S2048x2048_S2048x160_S2048x160_1_0_0_1_n_n.rhsIdx i q 0).val = (q ⟨0, by decide⟩).val :=
  dot_S2048x2048_S2048x160_S2048x160_1_0_0_1_n_n.rhsIdx_val_of_single rfl i q
theorem rhsPV_1 (i : S2048x160.Idx) (q : dot_S2048x2048_S2048x160_S2048x160_1_0_0_1_n_n.contr.Idx) :
    (dot_S2048x2048_S2048x160_S2048x160_1_0_0_1_n_n.rhsIdx i q 1).val = (i 1).val := by
  unfold DotDims.rhsIdx
  rw [dif_neg (show ¬(1 : Fin S2048x160.rank) ∈ dot_S2048x2048_S2048x160_S2048x160_1_0_0_1_n_n.rhsBatch by decide), dif_pos (show (1 : Fin S2048x160.rank) ∈ dot_S2048x2048_S2048x160_S2048x160_1_0_0_1_n_n.rhsNonContracting by decide)]
  rfl

/-- Entry `(i, e)` is the sum over the key position `j` of weight `(i, j)` times value `(j, e)`. -/
theorem matmulPV (A : FVec Ideal S2048x2048 .bf16) (B : FVec Ideal S2048x160 .bf16) (i : Fin 2048) (e : Fin 160) :
    matmul dot_S2048x2048_S2048x160_S2048x160_1_0_0_1_n_n none A B (constant (F := Ideal) S2048x160 .f32 0x00000000#32) (ix2 i e)
      = ∑ j : Fin 2048, A (ix2 i j) * B (ix2 j e) := by
  refine (Ideal.matmul_constant_zero_apply dot_S2048x2048_S2048x160_S2048x160_1_0_0_1_n_n none A B (ix2 i e)).trans ?_
  rw [← Equiv.sum_comp (contrEquiv1 dot_S2048x2048_S2048x160_S2048x160_1_0_0_1_n_n 2048 rfl rfl).symm]
  refine Finset.sum_congr rfl fun k _ => ?_
  have hk := contrEquiv1_symm_val dot_S2048x2048_S2048x160_S2048x160_1_0_0_1_n_n 2048 rfl rfl k
  have el : dot_S2048x2048_S2048x160_S2048x160_1_0_0_1_n_n.lhsIdx (ix2 i e) ((contrEquiv1 dot_S2048x2048_S2048x160_S2048x160_1_0_0_1_n_n 2048 rfl rfl).symm k) = ix2 i k := funext fun a => Fin.ext (by
    match a with
    | ⟨0, _⟩ => exact lhsPV_0 _ _
    | ⟨1, _⟩ => exact (lhsPV_1 _ _).trans hk)
  have er : dot_S2048x2048_S2048x160_S2048x160_1_0_0_1_n_n.rhsIdx (ix2 i e) ((contrEquiv1 dot_S2048x2048_S2048x160_S2048x160_1_0_0_1_n_n 2048 rfl rfl).symm k) = ix2 k e := funext fun a => Fin.ext (by
    match a with
    | ⟨0, _⟩ => exact (rhsPV_0 _ _).trans hk
    | ⟨1, _⟩ => exact rhsPV_1 _ _)
  rw [el, er]

/-! ## The two lane reductions of a [2048, 2048] array over its second axis -/

/-- The row maximum: the fold of the maximum from `-∞` over the row's entries. -/
theorem rowMax_block (S : FVec Ideal S2048x2048 .f32) (h : S2048x2048.Reduces [1] S2048) (hφ : FKind.Formats .f32)
    (hacc : (0xFF800000#32 : BitVec FTy.f32.bits) = FKind.maximumf.neutral .f32 hφ) (i : Fin 2048) :
    multiReduction .maximumf [1] S2048 S 0xFF800000#32 h hφ hacc (ix1 i)
      = (Finset.univ : Finset (Fin 2048)).fold max ⊥ (fun j => S (ix2 i j)) := by
  refine (Ideal.multiReduction_maximumf_single S _ h hφ hacc (ix1 i)).trans ?_
  have hl : (S ∘ h.lift (ix1 i)) = fun j : Fin 2048 => S (ix2 i j) :=
    funext fun j => congrArg S (by funext c; apply Fin.ext; fin_cases c <;> rfl)
  rw [hl]
  show Finset.fold max (Ideal.ofBits .f32 0xFF800000#32) _ _ = _
  rw [ofBits_neg_inf]
  rfl

/-- The row sum: the sum of the row's entries. -/
theorem rowSum_block (P : FVec Ideal S2048x2048 .f32) (h : S2048x2048.Reduces [1] S2048) (hφ : FKind.Formats .f32)
    (hacc : (0x00000000#32 : BitVec FTy.f32.bits) = FKind.add.neutral .f32 hφ) (i : Fin 2048) :
    multiReduction .add [1] S2048 P 0x00000000#32 h hφ hacc (ix1 i) = ∑ j : Fin 2048, P (ix2 i j) := by
  refine (Ideal.multiReduction_add_single P _ h hφ hacc (ix1 i)).trans (Finset.sum_congr rfl fun j _ => congrArg P ?_)
  funext c; apply Fin.ext; fin_cases c <;> rfl

/-! ## The first body: a block of key rows and a block of value rows -/

/-- A block of projected rows, narrowed to bf16 and given a leading unit axis: what the first body stores. -/
def projBlock (v0 : FVec Ideal S1x512x160 .f32) (W : FVec Ideal S160x160 .f32) (b : FVec Ideal S1x160 .f32) :
    FVec Ideal S1x512x160 .bf16 :=
  shapeCast S1x512x160
    (truncf .bf16
      (addf (matmul dot_S512x160_S160x160_S512x160_1_0_0_1_n_n none (shapeCast S512x160 v0 shapeCasts_S1x512x160_S512x160) W (constant S512x160 .f32 0x00000000#32))
        (broadcastTo S512x160 (shapeCast S1x160 b shapeCasts_S1x160_S1x160) broadcasts_S1x160_S512x160))
      bitsLt_bf16_f32)
    shapeCasts_S512x160_S1x512x160

/-- The key block's payload is that term. -/
theorem k0_pay2_eq (v0 : FVec Ideal S1x512x160 .f32) (v2 : FVec Ideal S160x160 .f32) (v4 : FVec Ideal S1x160 .f32) :
    k0_pay2 (F := Ideal) v0 v2 v4 = projBlock v0 v2 v4 := rfl

/-- The value block's payload is the same term of its own matrix and bias. -/
theorem k0_pay3_eq (v0 : FVec Ideal S1x512x160 .f32) (v8 : FVec Ideal S160x160 .f32) (v10 : FVec Ideal S1x160 .f32) :
    k0_pay3 (F := Ideal) v0 v8 v10 = projBlock v0 v8 v10 := rfl

/-- Entry `(0, r, e)` of a projected block: row `r` of the block times the matrix's column `e`, plus the bias at `e`. -/
theorem projBlock_apply (v0 : FVec Ideal S1x512x160 .f32) (W : FVec Ideal S160x160 .f32) (b : FVec Ideal S1x160 .f32)
    (u : Fin 1) (r : Fin 512) (e : Fin 160) :
    projBlock v0 W b (ix3 u r e) = (∑ d : Fin 160, v0 (ix3 (0 : Fin 1) r d) * W (ix2 d e)) + b (ix2 (0 : Fin 1) e) := by
  unfold projBlock
  refine (shapeCast_ab_1ab_apply _ _ u r e).trans ?_
  refine (truncf_apply (φ := FTy.f32) (ψ := FTy.bf16) _ bitsLt_bf16_f32 _).trans ?_
  refine (addf_apply _ _ _).trans ?_
  refine congrArg₂ (· + ·) ?_ ?_
  · refine (matmul512 _ _ r e).trans (Finset.sum_congr rfl fun d _ => ?_)
    rw [shapeCast_1ab_ab_apply]
  · refine (broadcastTo_1b_ab_apply _ _ r e).trans ?_
    rw [shapeCast_self]

/-! ## The second body, stage by stage -/

section Attn

variable (v0 : FVec Ideal S1x2048x160 .f32) (v2 : FVec Ideal S160x160 .f32) (v4 : FVec Ideal S1x160 .f32)
  (v9 v20 : FVec Ideal S1x2048x160 .bf16)

/-- The query block [2048, 160]. -/
def qB : FVec Ideal S2048x160 .f32 :=
  addf (matmul dot_S2048x160_S160x160_S2048x160_1_0_0_1_n_n none (shapeCast S2048x160 v0 shapeCasts_S1x2048x160_S2048x160) v2 (constant S2048x160 .f32 0x00000000#32))
    (broadcastTo S2048x160 (shapeCast S1x160 v4 shapeCasts_S1x160_S1x160) broadcasts_S1x160_S2048x160)

/-- The scores [2048, 2048]. -/
def sB : FVec Ideal S2048x2048 .f32 :=
  matmul dot_S2048x160_S2048x160_S2048x2048_1_1_0_0_n_n none (truncf .bf16 (qB v0 v2 v4) bitsLt_bf16_f32)
    (shapeCast S2048x160 v9 shapeCasts_S1x2048x160_S2048x160) (constant S2048x2048 .f32 0x00000000#32)

/-- The row maxima [2048]. -/
def mB : FVec Ideal S2048 .f32 :=
  multiReduction .maximumf [1] S2048 (sB v0 v2 v4 v9) 0xFF800000#32 reduces_S2048x2048_S2048 (.inl rfl) rfl

/-- The weights [2048, 2048]. -/
def pB : FVec Ideal S2048x2048 .f32 :=
  exp (subf (sB v0 v2 v4 v9)
    (broadcastTo S2048x2048 (shapeCast S2048x1 (mB v0 v2 v4 v9) shapeCasts_S2048_S2048x1) broadcasts_S2048x1_S2048x2048))

/-- The denominators [2048]. -/
def lB : FVec Ideal S2048 .f32 :=
  multiReduction .add [1] S2048 (pB v0 v2 v4 v9) 0x00000000#32 reduces_S2048x2048_S2048 (.inl rfl) rfl

/-- What the second body stores: the weighted value rows times the reciprocal denominators, plus the input rows. -/
def outB : FVec Ideal S1x2048x160 .f32 :=
  shapeCast S1x2048x160
    (addf
      (mulf
        (matmul dot_S2048x2048_S2048x160_S2048x160_1_0_0_1_n_n none (truncf .bf16 (pB v0 v2 v4 v9) bitsLt_bf16_f32)
          (shapeCast S2048x160 v20 shapeCasts_S1x2048x160_S2048x160) (constant S2048x160 .f32 0x00000000#32))
        (broadcastTo S2048x160
          (divf (broadcast S2048x1 (Scalar.ofBits .f32 0x3F800000#32 : Ideal .f32))
            (shapeCast S2048x1 (lB v0 v2 v4 v9) shapeCasts_S2048_S2048x1))
          broadcasts_S2048x1_S2048x160))
      (shapeCast S2048x160 v0 shapeCasts_S1x2048x160_S2048x160))
    shapeCasts_S2048x160_S1x2048x160

/-- The second body's payload is that term. -/
theorem k1_pay1_eq : k1_pay1 (F := Ideal) v0 v2 v4 v9 v20 = outB v0 v2 v4 v9 v20 := rfl

/-! ### Each stage at an index, for a block that is batch `n` of whole arrays -/

variable (x : Arr3) (Wq : Mat) (bq : Bias) (K V : Arr3) (n : Fin 16)
variable (hx : ∀ (i : Fin 2048) (d : Fin 160), v0 (ix3 (0 : Fin 1) i d) = x (ix3 n i d))
  (hW : ∀ d e : Fin 160, v2 (ix2 d e) = Wq (ix2 d e))
  (hb : ∀ e : Fin 160, v4 (ix2 (0 : Fin 1) e) = bq (ix1 e))
  (hK : ∀ (j : Fin 2048) (e : Fin 160), v9 (ix3 (0 : Fin 1) j e) = K (ix3 n j e))
  (hV : ∀ (j : Fin 2048) (e : Fin 160), v20 (ix3 (0 : Fin 1) j e) = V (ix3 n j e))

include hx hW hb in
/-- The query block is batch `n` of the query projection. -/
theorem qB_apply (i : Fin 2048) (e : Fin 160) : qB v0 v2 v4 (ix2 i e) = proj x Wq bq (ix3 n i e) := by
  unfold qB
  refine (addf_apply _ _ _).trans ?_
  show _ = (∑ d : Fin 160, x (ix3 n i d) * Wq (ix2 d e)) + bq (ix1 e)
  refine congrArg₂ (· + ·) ?_ ?_
  · refine (matmul2048 _ _ i e).trans (Finset.sum_congr rfl fun d _ => ?_)
    rw [shapeCast_1ab_ab_apply, hx, hW]
  · refine (broadcastTo_1b_ab_apply _ _ i e).trans ?_
    rw [shapeCast_self, hb]

include hx hW hb hK in
/-- The score block is batch `n` of the scores. -/
theorem sB_apply (i j : Fin 2048) : sB v0 v2 v4 v9 (ix2 i j) = score (proj x Wq bq) K n i j := by
  unfold sB
  refine (matmulQK _ _ i j).trans ?_
  unfold score
  refine Finset.sum_congr rfl fun e _ => ?_
  rw [truncf_apply, qB_apply v0 v2 v4 x Wq bq n hx hW hb, shapeCast_1ab_ab_apply, hK]

include hx hW hb hK in
/-- The row maxima are batch `n`'s. -/
theorem mB_apply (i : Fin 2048) : mB v0 v2 v4 v9 (ix1 i) = rowMax (proj x Wq bq) K n i := by
  unfold mB
  refine (rowMax_block _ _ _ _ i).trans ?_
  unfold rowMax
  exact congrArg (fun f => Finset.fold max ⊥ f (Finset.univ : Finset (Fin 2048)))
    (funext fun j => sB_apply v0 v2 v4 v9 x Wq bq K n hx hW hb hK i j)

include hx hW hb hK in
/-- The weights are batch `n`'s. -/
theorem pB_apply (i j : Fin 2048) : pB v0 v2 v4 v9 (ix2 i j) = weight (proj x Wq bq) K n i j := by
  unfold pB weight
  show Ideal.exp (sB v0 v2 v4 v9 (ix2 i j)
      - broadcastTo S2048x2048 (shapeCast S2048x1 (mB v0 v2 v4 v9) shapeCasts_S2048_S2048x1) broadcasts_S2048x1_S2048x2048 (ix2 i j)) = _
  rw [sB_apply v0 v2 v4 v9 x Wq bq K n hx hW hb hK, broadcastTo_a1_ab_apply, shapeCast_a_a1_apply,
    mB_apply v0 v2 v4 v9 x Wq bq K n hx hW hb hK]

include hx hW hb hK in
/-- The denominators are batch `n`'s. -/
theorem lB_apply (i : Fin 2048) : lB v0 v2 v4 v9 (ix1 i) = denom (proj x Wq bq) K n i := by
  unfold lB denom
  exact (rowSum_block _ _ _ _ i).trans
    (Finset.sum_congr rfl fun j _ => pB_apply v0 v2 v4 v9 x Wq bq K n hx hW hb hK i j)

include hx hW hb hK hV in
/-- What the second body stores is batch `n` of the attention normalised after the product with the values. -/
theorem outB_apply (u : Fin 1) (i : Fin 2048) (e : Fin 160) :
    outB v0 v2 v4 v9 v20 (ix3 u i e)
      = attnLate (Ideal.ofBits .f32 0x3F800000#32) x (proj x Wq bq) K V (ix3 n i e) := by
  unfold outB
  refine (shapeCast_ab_1ab_apply _ _ u i e).trans ?_
  refine (addf_apply _ _ _).trans ?_
  show _ = (∑ j : Fin 2048, weight (proj x Wq bq) K n i j * V (ix3 n j e))
      * Ideal.div (Ideal.ofBits .f32 0x3F800000#32) (denom (proj x Wq bq) K n i) + x (ix3 n i e)
  refine congrArg₂ (· + ·) ?_ ?_
  · refine (mulf_apply _ _ _).trans ?_
    refine congrArg₂ (· * ·) ?_ ?_
    · refine (matmulPV _ _ i e).trans (Finset.sum_congr rfl fun j _ => ?_)
      rw [truncf_apply, pB_apply v0 v2 v4 v9 x Wq bq K n hx hW hb hK, shapeCast_1ab_ab_apply, hV]
    · refine (broadcastTo_a1_ab_apply _ _ i e).trans ?_
      refine (divf_apply _ _ _).trans ?_
      refine congrArg₂ Ideal.div rfl ?_
      rw [shapeCast_a_a1_apply, lB_apply v0 v2 v4 v9 x Wq bq K n hx hW hb hK]
  · rw [shapeCast_1ab_ab_apply, hx]

end Attn

end Cert.KernelIdeal.Pay

end
-- ==== Proof.KernelValue.lean ====
/-
  What the idealized kernel's two regions leave in their output arrays, as functions of whole arrays.

  First region, grid 16 × 4: point `(n, b)` fetches rows `512·b … 512·b + 511` of batch `n` of `y`, the two weight
  matrices and the two bias rows whole, and writes back the same rows of batch `n` of the key and of the value
  array. Its 64 blocks tile each output array, so the key array ends as the projection `y · Wk + bk` and the value
  array as `y · Wv + bv`.
  Second region, grid 16 × 1: point `n` fetches batch `n` of `x`, of the key array and of the value array, `Wq` and
  the bias row whole, and writes back batch `n` of the result. Its 16 blocks tile the result, which ends as the
  attention normalised after the product with the values, of the query projection `x · Wq + bq` and of the key
  and value arrays as the second region finds them.
  Last, the buffer contents at the region boundaries are read back to the launch memory: the host stretch before the
  first region only reshapes the three biases `[160]` to rows `[1, 160]`.
-/
import proofs.«167128_g83305185673742_cont_9to1c4b_147_9_alg».proof.Proof.Gen.KernelIdeal.Frame
import proofs.«167128_g83305185673742_cont_9to1c4b_147_9_alg».proof.Proof.KernelPay
import Idealize.ShloMosaic.Lib.Pipeline.Value
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Pay Cert.Attn Cert.LibReal
open Idealize.ShloMosaic Idealize.ShloMosaic.TcCoe Idealize.SL.Sem Idealize.ShloMosaic.ValueIdx
open Idealize.ShloMosaic.Pipeline (Dat)
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

/-- A bias row `[1, 160]` read as a bias `[160]`. -/
def rowBias (b : (⟨2, ![1, 160]⟩ : Shape).Idx → EReal) : Bias := fun e => b (ix2 (0 : Fin 1) (e 0))

/-- Any index of a block `[1, 512, 160]` by its coordinates. -/
theorem projBlock_at (v0 : FVec Ideal S1x512x160 .f32) (W : FVec Ideal S160x160 .f32) (b : FVec Ideal S1x160 .f32)
    (j : S1x512x160.Idx) :
    projBlock v0 W b j = (∑ d : Fin 160, v0 (ix3 (0 : Fin 1) (j 1) d) * W (ix2 d (j 2))) + b (ix2 (0 : Fin 1) (j 2)) :=
  (congrArg (projBlock v0 W b) (eq_ix3 j)).trans (projBlock_apply v0 W b (j 0) (j 1) (j 2))

section Regions

variable (V : (c : Dev nD) → (b : Ref sig .tc) → Buf (Elt Ideal) ((c : Thread nD τ).loc b))

/-! ## The arrays a region finds, at their literal types -/

abbrev xArr (c : Dev nD) : Arr3 := V c main_arg0
abbrev yArr (c : Dev nD) : Arr3 := V c main_arg1
abbrev wqArr (c : Dev nD) : Mat := V c main_arg2
abbrev wkArr (c : Dev nD) : Mat := V c main_arg4
abbrev wvArr (c : Dev nD) : Mat := V c main_arg6
abbrev bqRow (c : Dev nD) : (⟨2, ![1, 160]⟩ : Shape).Idx → EReal := V c main_v0
abbrev bkRow (c : Dev nD) : (⟨2, ![1, 160]⟩ : Shape).Idx → EReal := V c main_v1
abbrev bvRow (c : Dev nD) : (⟨2, ![1, 160]⟩ : Shape).Idx → EReal := V c main_v2
abbrev kArr (c : Dev nD) : Arr3 := V c main_v3_0
abbrev vArr (c : Dev nD) : Arr3 := V c main_v3_1

/-! ## The first region -/

/-- The printed index maps over the 64 points: the input rows move with the output rows; the matrices and bias rows
    stay at block 0; the feature axis is never split. -/
theorem idx0 : ∀ t : Fin cfg0.N,
      win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_6.index t (0 : Fin 3) = win0_5.index t (0 : Fin 3) ∧ win0_6.index t (1 : Fin 3) = win0_5.index t (1 : Fin 3)
    ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of rows of every batch is some point's. -/
theorem onto0 : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-- What point `t` writes back to the key array is block `t` of the key projection. -/
theorem flushedK (c : Dev nD) (t : Fin cfg0.N) :
    (dat0 (F := Ideal) V c).flushed 5 t
      = ((cfg0.win 5).blk t).view.read (Elt Ideal) (proj (yArr V c) (wkArr V c) (rowBias (bkRow V c))) := by
  show (cfg0.win 5).cut (grid0.coords t) ((dat0 (F := Ideal) V c).after 5 t) = _
  rw [after0_5]
  unfold out0_5
  rw [View.canon_unit_zero hz3]
  simp only [View.ld_unit_zero (S := S1x512x160) hz3, View.ld_unit_zero (S := S160x160) hz2, View.ld_unit_zero (S := S1x160) hz2]
  rw [k0_pay2_eq]
  obtain ⟨e0, e1, e2, e3, e4, e5, e6, e7, e8, e9, e10, e11, e12, e13, e14⟩ := idx0 t
  funext j
  refine (projBlock_at _ _ _ j).trans ?_
  rw [View.read_apply]
  unfold proj
  have hj0 : (j 0).val < 1 := (j 0).isLt
  refine congrArg₂ (· + ·) (Finset.sum_congr rfl fun d _ => congrArg₂ (· * ·) ?_ ?_) ?_
  · show yArr V c (((cfg0.win 0).blk t).view.emb (ix3 (0 : Fin 1) (j 1) d)) = yArr V c _
    refine congrArg (yArr V c) (funext fun a => Fin.ext ?_)
    match a with
    | ⟨0, _⟩ => show win0_0.index t (0 : Fin 3) * 1 + 1 * 0 = win0_5.index t (0 : Fin 3) * 1 + 1 * (j 0).val; omega
    | ⟨1, _⟩ => show win0_0.index t (1 : Fin 3) * 512 + 1 * (j 1).val = win0_5.index t (1 : Fin 3) * 512 + 1 * (j 1).val; omega
    | ⟨2, _⟩ => show win0_0.index t (2 : Fin 3) * 160 + 1 * d.val = d.val; omega
  · show wkArr V c (((cfg0.win 1).blk t).view.emb (ix2 d (j 2))) = wkArr V c _
    refine congrArg (wkArr V c) (funext fun a => Fin.ext ?_)
    match a with
    | ⟨0, _⟩ => show win0_1.index t (0 : Fin 2) * 160 + 1 * d.val = d.val; omega
    | ⟨1, _⟩ => show win0_1.index t (1 : Fin 2) * 160 + 1 * (j 2).val = win0_5.index t (2 : Fin 3) * 160 + 1 * (j 2).val; omega
  · show bkRow V c (((cfg0.win 2).blk t).view.emb (ix2 (0 : Fin 1) (j 2))) = bkRow V c _
    refine congrArg (bkRow V c) (funext fun a => Fin.ext ?_)
    match a with
    | ⟨0, _⟩ => show win0_2.index t (0 : Fin 2) * 1 + 1 * 0 = 0; omega
    | ⟨1, _⟩ => show win0_2.index t (1 : Fin 2) * 160 + 1 * (j 2).val = win0_5.index t (2 : Fin 3) * 160 + 1 * (j 2).val; omega

/-- What point `t` writes back to the value array is block `t` of the value projection. -/
theorem flushedV (c : Dev nD) (t : Fin cfg0.N) :
    (dat0 (F := Ideal) V c).flushed 6 t
      = ((cfg0.win 6).blk t).view.read (Elt Ideal) (proj (yArr V c) (wvArr V c) (rowBias (bvRow V c))) := by
  show (cfg0.win 6).cut (grid0.coords t) ((dat0 (F := Ideal) V c).after 6 t) = _
  rw [after0_6]
  unfold out0_6
  rw [View.canon_unit_zero hz3]
  simp only [View.ld_unit_zero (S := S1x512x160) hz3, View.ld_unit_zero (S := S160x160) hz2, View.ld_unit_zero (S := S1x160) hz2]
  rw [k0_pay3_eq]
  obtain ⟨e0, e1, e2, e3, e4, e5, e6, e7, e8, e9, e10, e11, e12, e13, e14⟩ := idx0 t
  funext j
  refine (projBlock_at _ _ _ j).trans ?_
  rw [View.read_apply]
  unfold proj
  have hj0 : (j 0).val < 1 := (j 0).isLt
  refine congrArg₂ (· + ·) (Finset.sum_congr rfl fun d _ => congrArg₂ (· * ·) ?_ ?_) ?_
  · show yArr V c (((cfg0.win 0).blk t).view.emb (ix3 (0 : Fin 1) (j 1) d)) = yArr V c _
    refine congrArg (yArr V c) (funext fun a => Fin.ext ?_)
    match a with
    | ⟨0, _⟩ => show win0_0.index t (0 : Fin 3) * 1 + 1 * 0 = win0_6.index t (0 : Fin 3) * 1 + 1 * (j 0).val; omega
    | ⟨1, _⟩ => show win0_0.index t (1 : Fin 3) * 512 + 1 * (j 1).val = win0_6.index t (1 : Fin 3) * 512 + 1 * (j 1).val; omega
    | ⟨2, _⟩ => show win0_0.index t (2 : Fin 3) * 160 + 1 * d.val = d.val; omega
  · show wvArr V c (((cfg0.win 3).blk t).view.emb (ix2 d (j 2))) = wvArr V c _
    refine congrArg (wvArr V c) (funext fun a => Fin.ext ?_)
    match a with
    | ⟨0, _⟩ => show win0_3.index t (0 : Fin 2) * 160 + 1 * d.val = d.val; omega
    | ⟨1, _⟩ => show win0_3.index t (1 : Fin 2) * 160 + 1 * (j 2).val = win0_6.index t (2 : Fin 3) * 160 + 1 * (j 2).val; omega
  · show bvRow V c (((cfg0.win 4).blk t).view.emb (ix2 (0 : Fin 1) (j 2))) = bvRow V c _
    refine congrArg (bvRow V c) (funext fun a => Fin.ext ?_)
    match a with
    | ⟨0, _⟩ => show win0_4.index t (0 : Fin 2) * 1 + 1 * 0 = 0; omega
    | ⟨1, _⟩ => show win0_4.index t (1 : Fin 2) * 160 + 1 * (j 2).val = win0_6.index t (2 : Fin 3) * 160 + 1 * (j 2).val; omega

/-- An index of the key array is in point `t`'s block iff each coordinate is in the block's range on its axis. -/
theorem mem_blkK (t : Fin cfg0.N) (i : S16x2048x160.Idx) :
    i ∈ ((cfg0.win 5).blk t).view.set ↔ ∀ a : Fin 3, win0_5.index t a * S1x512x160.size a ≤ (i a).val
      ∧ (i a).val < win0_5.index t a * S1x512x160.size a + S1x512x160.size a := by
  show i ∈ ((View.whole main_v3_0).slice (win0_5.rect t)).set ↔ _
  rw [View.set_slice_whole, Rect.mem_set_unit]
  exact Iff.rfl

/-- The same for the value array. -/
theorem mem_blkV (t : Fin cfg0.N) (i : S16x2048x160.Idx) :
    i ∈ ((cfg0.win 6).blk t).view.set ↔ ∀ a : Fin 3, win0_6.index t a * S1x512x160.size a ≤ (i a).val
      ∧ (i a).val < win0_6.index t a * S1x512x160.size a + S1x512x160.size a := by
  show i ∈ ((View.whole main_v3_1).slice (win0_6.rect t)).set ↔ _
  rw [View.set_slice_whole, Rect.mem_set_unit]
  exact Iff.rfl

/-- Row `r` of batch `n` lies in the block of the point whose block index is `(n, r / 512)`. -/
theorem coverK (i : S16x2048x160.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 160 := (i 2).isLt
  obtain ⟨t, ht⟩ := onto0 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blkK]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 160 ≤ (i 2).val ∧ (i 2).val < win0_5.index t (2 : Fin 3) * 160 + 160; omega

/-- The same for the value array, whose blocks move with the key array's. -/
theorem coverV (i : S16x2048x160.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 160 := (i 2).isLt
  obtain ⟨t, ht⟩ := onto0 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨e0, e1, e2, e3, e4, e5, e6, e7, e8, e9, e10, e11, e12, e13, e14⟩ := idx0 t
  refine ⟨t, flush0_6 t, ?_⟩
  rw [mem_blkV]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 160 ≤ (i 2).val ∧ (i 2).val < win0_6.index t (2 : Fin 3) * 160 + 160; omega

/-- The key array after the first region: the key projection of what the region found. -/
theorem finalK (c : Dev nD) :
    (dat0 (F := Ideal) V c).arrAt 5 cfg0.N = proj (yArr V c) (wkArr V c) (rowBias (bkRow V c)) :=
  (dat0 (F := Ideal) V c).arrAt_eq_of_cover 5 (proj (yArr V c) (wkArr V c) (rowBias (bkRow V c)))
    (fun t _ => flushedK V c t) coverK

/-- The value array after the first region: the value projection of what the region found. -/
theorem finalV (c : Dev nD) :
    (dat0 (F := Ideal) V c).arrAt 6 cfg0.N = proj (yArr V c) (wvArr V c) (rowBias (bvRow V c)) :=
  (dat0 (F := Ideal) V c).arrAt_eq_of_cover 6 (proj (yArr V c) (wvArr V c) (rowBias (bvRow V c)))
    (fun t _ => flushedV V c t) coverV

/-! ## The second region -/

/-- The printed index maps over the 16 points: every batch-blocked window is at the point's batch and at block 0 on
    the other axes; the matrix and the bias row stay at block 0. -/
theorem idx1 : ∀ t : Fin cfg1.N,
      win1_0.index t (0 : Fin 3) = win1_5.index t (0 : Fin 3) ∧ win1_0.index t (1 : Fin 3) = 0 ∧ win1_0.index t (2 : Fin 3) = 0
    ∧ win1_5.index t (1 : Fin 3) = 0 ∧ win1_5.index t (2 : Fin 3) = 0 ∧ win1_5.index t (0 : Fin 3) < 16
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every batch is some point's. -/
theorem onto1 : ∀ q0 : Fin 16, ∃ t : Fin cfg1.N, win1_5.index t = ![q0.val, 0, 0] :=
  (by decide +kernel : ∀ q0 : Fin 16, ∃ t : Fin grid1.N, win1_5.index t = ![q0.val, 0, 0])

/-- What the second body stores, at any index of its block, against any index of the result array with the same
    row and feature in batch `n`. -/
theorem outB_at (v0 : FVec Ideal S1x2048x160 .f32) (v2 : FVec Ideal S160x160 .f32) (v4 : FVec Ideal S1x160 .f32)
    (v9 v20 : FVec Ideal S1x2048x160 .bf16) (x : Arr3) (Wq : Mat) (bq : Bias) (K W : Arr3) (n : Fin 16)
    (hx : ∀ (i : Fin 2048) (d : Fin 160), v0 (ix3 (0 : Fin 1) i d) = x (ix3 n i d))
    (hW : ∀ d e : Fin 160, v2 (ix2 d e) = Wq (ix2 d e))
    (hb : ∀ e : Fin 160, v4 (ix2 (0 : Fin 1) e) = bq (ix1 e))
    (hK : ∀ (j : Fin 2048) (e : Fin 160), v9 (ix3 (0 : Fin 1) j e) = K (ix3 n j e))
    (hV : ∀ (j : Fin 2048) (e : Fin 160), v20 (ix3 (0 : Fin 1) j e) = W (ix3 n j e))
    (j : S1x2048x160.Idx) (k : (⟨3, ![16, 2048, 160]⟩ : Shape).Idx)
    (hk0 : (k 0).val = n.val) (hk1 : (k 1).val = (j 1).val) (hk2 : (k 2).val = (j 2).val) :
    outB v0 v2 v4 v9 v20 j = attnLate (Ideal.ofBits .f32 0x3F800000#32) x (proj x Wq bq) K W k := by
  refine ((congrArg (outB v0 v2 v4 v9 v20) (eq_ix3 j)).trans
    (outB_apply v0 v2 v4 v9 v20 x Wq bq K W n hx hW hb hK hV (j 0) (j 1) (j 2))).trans ?_
  refine congrArg _ (funext fun a => Fin.ext ?_)
  match a with
  | ⟨0, _⟩ => exact hk0.symm
  | ⟨1, _⟩ => exact hk1.symm
  | ⟨2, _⟩ => exact hk2.symm

/-- What point `t` writes back to the result is block `t` of the attention, normalised after the product with the
    values, of the query projection and of the key and value arrays the region finds. -/
theorem flushedOut (c : Dev nD) (t : Fin cfg1.N) :
    (dat1 (F := Ideal) V c).flushed 5 t
      = ((cfg1.win 5).blk t).view.read (Elt Ideal)
          (attnLate (Ideal.ofBits .f32 0x3F800000#32) (xArr V c) (proj (xArr V c) (wqArr V c) (rowBias (bqRow V c)))
            (kArr V c) (vArr V c)) := by
  show (cfg1.win 5).cut (grid1.coords t) ((dat1 (F := Ideal) V c).after 5 t) = _
  rw [after1_5]
  unfold out1_5
  rw [View.canon_unit_zero hz3]
  simp only [View.ld_unit_zero (S := S1x2048x160) hz3, View.ld_unit_zero (S := S160x160) hz2, View.ld_unit_zero (S := S1x160) hz2]
  rw [k1_pay1_eq]
  obtain ⟨e0, e1, e2, e3, e4, e5, e6, e7, e8, e9, e10, e11, e12, e13, e14, e15⟩ := idx1 t
  funext j
  rw [View.read_apply]
  have hj0 : (j 0).val < 1 := (j 0).isLt
  refine outB_at _ _ _ _ _ (xArr V c) (wqArr V c) (rowBias (bqRow V c)) (kArr V c) (vArr V c)
    ⟨win1_5.index t (0 : Fin 3), e5⟩ ?_ ?_ ?_ ?_ ?_ j _ ?_ ?_ ?_
  · intro i d
    show xArr V c (((cfg1.win 0).blk t).view.emb (ix3 (0 : Fin 1) i d)) = xArr V c _
    refine congrArg (xArr V c) (funext fun a => Fin.ext ?_)
    match a with
    | ⟨0, _⟩ => show win1_0.index t (0 : Fin 3) * 1 + 1 * 0 = win1_5.index t (0 : Fin 3); omega
    | ⟨1, _⟩ => show win1_0.index t (1 : Fin 3) * 2048 + 1 * i.val = i.val; omega
    | ⟨2, _⟩ => show win1_0.index t (2 : Fin 3) * 160 + 1 * d.val = d.val; omega
  · intro d e
    show wqArr V c (((cfg1.win 1).blk t).view.emb (ix2 d e)) = wqArr V c _
    refine congrArg (wqArr V c) (funext fun a => Fin.ext ?_)
    match a with
    | ⟨0, _⟩ => show win1_1.index t (0 : Fin 2) * 160 + 1 * d.val = d.val; omega
    | ⟨1, _⟩ => show win1_1.index t (1 : Fin 2) * 160 + 1 * e.val = e.val; omega
  · intro e
    show bqRow V c (((cfg1.win 2).blk t).view.emb (ix2 (0 : Fin 1) e)) = bqRow V c (ix2 (0 : Fin 1) e)
    refine congrArg (bqRow V c) (funext fun a => Fin.ext ?_)
    match a with
    | ⟨0, _⟩ => show win1_2.index t (0 : Fin 2) * 1 + 1 * 0 = 0; omega
    | ⟨1, _⟩ => show win1_2.index t (1 : Fin 2) * 160 + 1 * e.val = e.val; omega
  · intro i e
    show kArr V c (((cfg1.win 3).blk t).view.emb (ix3 (0 : Fin 1) i e)) = kArr V c _
    refine congrArg (kArr V c) (funext fun a => Fin.ext ?_)
    match a with
    | ⟨0, _⟩ => show win1_3.index t (0 : Fin 3) * 1 + 1 * 0 = win1_5.index t (0 : Fin 3); omega
    | ⟨1, _⟩ => show win1_3.index t (1 : Fin 3) * 2048 + 1 * i.val = i.val; omega
    | ⟨2, _⟩ => show win1_3.index t (2 : Fin 3) * 160 + 1 * e.val = e.val; omega
  · intro i e
    show vArr V c (((cfg1.win 4).blk t).view.emb (ix3 (0 : Fin 1) i e)) = vArr V c _
    refine congrArg (vArr V c) (funext fun a => Fin.ext ?_)
    match a with
    | ⟨0, _⟩ => show win1_4.index t (0 : Fin 3) * 1 + 1 * 0 = win1_5.index t (0 : Fin 3); omega
    | ⟨1, _⟩ => show win1_4.index t (1 : Fin 3) * 2048 + 1 * i.val = i.val; omega
    | ⟨2, _⟩ => show win1_4.index t (2 : Fin 3) * 160 + 1 * e.val = e.val; omega
  · show win1_5.index t (0 : Fin 3) * 1 + 1 * (j 0).val = win1_5.index t (0 : Fin 3); omega
  · show win1_5.index t (1 : Fin 3) * 2048 + 1 * (j 1).val = (j 1).val; omega
  · show win1_5.index t (2 : Fin 3) * 160 + 1 * (j 2).val = (j 2).val; omega

/-- An index of the result is in point `t`'s block iff each coordinate is in the block's range on its axis. -/
theorem mem_blkOut (t : Fin cfg1.N) (i : S16x2048x160.Idx) :
    i ∈ ((cfg1.win 5).blk t).view.set ↔ ∀ a : Fin 3, win1_5.index t a * S1x2048x160.size a ≤ (i a).val
      ∧ (i a).val < win1_5.index t a * S1x2048x160.size a + S1x2048x160.size a := by
  show i ∈ ((View.whole main_v4).slice (win1_5.rect t)).set ↔ _
  rw [View.set_slice_whole, Rect.mem_set_unit]
  exact Iff.rfl

/-- Batch `n` is the block of the point whose block index is `(n, 0, 0)`. -/
theorem coverOut (i : S16x2048x160.Idx) :
    ∃ t : Fin cfg1.N, (cfg1.win 5).flush t = true ∧ i ∈ ((cfg1.win 5).blk t).view.set := by
  have hi0 : (i 0).val < 16 := (i 0).isLt
  have hi1 : (i 1).val < 2048 := (i 1).isLt
  have hi2 : (i 2).val < 160 := (i 2).isLt
  obtain ⟨t, ht⟩ := onto1 ⟨(i 0).val, hi0⟩
  have q0 : win1_5.index t (0 : Fin 3) = (i 0).val := congrFun ht 0
  have q1 : win1_5.index t (1 : Fin 3) = 0 := congrFun ht 1
  have q2 : win1_5.index t (2 : Fin 3) = 0 := congrFun ht 2
  refine ⟨t, flush1_5 t, ?_⟩
  rw [mem_blkOut]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 2048 ≤ (i 1).val ∧ (i 1).val < win1_5.index t (1 : Fin 3) * 2048 + 2048; omega
  | ⟨2, _⟩ => show win1_5.index t (2 : Fin 3) * 160 ≤ (i 2).val ∧ (i 2).val < win1_5.index t (2 : Fin 3) * 160 + 160; omega

/-- The result array after the second region. -/
theorem finalOut (c : Dev nD) :
    (dat1 (F := Ideal) V c).arrAt 5 cfg1.N
      = attnLate (Ideal.ofBits .f32 0x3F800000#32) (xArr V c) (proj (xArr V c) (wqArr V c) (rowBias (bqRow V c)))
          (kArr V c) (vArr V c) :=
  (dat1 (F := Ideal) V c).arrAt_eq_of_cover 5 _ (fun t _ => flushedOut V c t) coverOut

end Regions

/-! ## The boundaries read back to the launch memory -/

variable (m : (ℓ : Loc nD τ sig) → Buf (Elt Ideal) ℓ) (ρ : Dev nD → PrngReg)

/-- The launch memory's eight arguments at their literal types. -/
abbrev ax (c : Dev nD) : Arr3 := m ((c.tc : Thread nD τ).loc main_arg0)
abbrev ay (c : Dev nD) : Arr3 := m ((c.tc : Thread nD τ).loc main_arg1)
abbrev aWq (c : Dev nD) : Mat := m ((c.tc : Thread nD τ).loc main_arg2)
abbrev abq (c : Dev nD) : Bias := m ((c.tc : Thread nD τ).loc main_arg3)
abbrev aWk (c : Dev nD) : Mat := m ((c.tc : Thread nD τ).loc main_arg4)
abbrev abk (c : Dev nD) : Bias := m ((c.tc : Thread nD τ).loc main_arg5)
abbrev aWv (c : Dev nD) : Mat := m ((c.tc : Thread nD τ).loc main_arg6)
abbrev abv (c : Dev nD) : Bias := m ((c.tc : Thread nD τ).loc main_arg7)

/-- A bias `[160]` reshaped to a row `[1, 160]` and read back as a bias is the bias. -/
theorem rowBias_reshape (b : Bias) (h : (⟨1, ![160]⟩ : Shape).ShapeCasts ⟨2, ![1, 160]⟩) :
    rowBias (shapeCast ⟨2, ![1, 160]⟩ b h) = b := by
  funext e
  unfold rowBias
  exact (shapeCast_a_1a_apply b h (0 : Fin 1) (e 0)).trans (congrArg b (eq_ix1 e).symm)

/-- After the host stretch the argument arrays hold their launch contents and the three bias rows the reshaped biases. -/
theorem V1_x (c : Dev nD) : xArr (V1 m ρ) c = ax m c := by
  show StableHlo.after hostOps0 (W0 m ρ c) (Proc.devRef .tc main_arg0) = _
  after_results
theorem V1_y (c : Dev nD) : yArr (V1 m ρ) c = ay m c := by
  show StableHlo.after hostOps0 (W0 m ρ c) (Proc.devRef .tc main_arg1) = _
  after_results
theorem V1_Wq (c : Dev nD) : wqArr (V1 m ρ) c = aWq m c := by
  show StableHlo.after hostOps0 (W0 m ρ c) (Proc.devRef .tc main_arg2) = _
  after_results
theorem V1_Wk (c : Dev nD) : wkArr (V1 m ρ) c = aWk m c := by
  show StableHlo.after hostOps0 (W0 m ρ c) (Proc.devRef .tc main_arg4) = _
  after_results
theorem V1_Wv (c : Dev nD) : wvArr (V1 m ρ) c = aWv m c := by
  show StableHlo.after hostOps0 (W0 m ρ c) (Proc.devRef .tc main_arg6) = _
  after_results
theorem V1_bq (c : Dev nD) : rowBias (bqRow (V1 m ρ) c) = abq m c := by
  have e : bqRow (V1 m ρ) c = shapeCast ⟨2, ![1, 160]⟩ (abq m c) shapeCasts_S160_S1x160 := by
    show StableHlo.after hostOps0 (W0 m ρ c) (Proc.devRef .tc main_v0) = _
    after_results
    rfl
  rw [e, rowBias_reshape]
theorem V1_bk (c : Dev nD) : rowBias (bkRow (V1 m ρ) c) = abk m c := by
  have e : bkRow (V1 m ρ) c = shapeCast ⟨2, ![1, 160]⟩ (abk m c) shapeCasts_S160_S1x160 := by
    show StableHlo.after hostOps0 (W0 m ρ c) (Proc.devRef .tc main_v1) = _
    after_results
    rfl
  rw [e, rowBias_reshape]
theorem V1_bv (c : Dev nD) : rowBias (bvRow (V1 m ρ) c) = abv m c := by
  have e : bvRow (V1 m ρ) c = shapeCast ⟨2, ![1, 160]⟩ (abv m c) shapeCasts_S160_S1x160 := by
    show StableHlo.after hostOps0 (W0 m ρ c) (Proc.devRef .tc main_v2) = _
    after_results
    rfl
  rw [e, rowBias_reshape]

/-- The first region writes only the key and value arrays: every other buffer the second region reads is as the first found it. -/
theorem V2_x (c : Dev nD) : xArr (V2 m ρ) c = ax m c :=
  (W2_of_ne m ρ c main_arg0 (by decide)).trans (V1_x m ρ c)
theorem V2_Wq (c : Dev nD) : wqArr (V2 m ρ) c = aWq m c :=
  (W2_of_ne m ρ c main_arg2 (by decide)).trans (V1_Wq m ρ c)
theorem V2_bq (c : Dev nD) : rowBias (bqRow (V2 m ρ) c) = abq m c := by
  have e : bqRow (V2 m ρ) c = bqRow (V1 m ρ) c := W2_of_ne m ρ c main_v0 (by decide)
  rw [e, V1_bq]

/-- The key array the second region finds is the key projection of the launch memory. -/
theorem V2_K (c : Dev nD) : kArr (V2 m ρ) c = proj (ay m c) (aWk m c) (abk m c) := by
  have e : kArr (V2 m ρ) c = (dat0 (F := Ideal) (V1 m ρ) c).arrAt 5 cfg0.N := W2_arr m ρ c 5
  rw [e, finalK, V1_y, V1_Wk, V1_bk]

/-- The value array the second region finds is the value projection of the launch memory. -/
theorem V2_V (c : Dev nD) : vArr (V2 m ρ) c = proj (ay m c) (aWv m c) (abv m c) := by
  have e : vArr (V2 m ρ) c = (dat0 (F := Ideal) (V1 m ρ) c).arrAt 6 cfg0.N := W2_arr m ρ c 6
  rw [e, finalV, V1_y, V1_Wv, V1_bv]

/-- THE RESULT: the last boundary's contents at the result buffer, as a function of the launch memory. -/
theorem result_eq (c : Dev nD) :
    (W3 (F := Ideal) m ρ c (Proc.devRef .tc main_v4) : Arr3)
      = attnLate (Ideal.ofBits .f32 0x3F800000#32) (ax m c) (proj (ax m c) (aWq m c) (abq m c))
          (proj (ay m c) (aWk m c) (abk m c)) (proj (ay m c) (aWv m c) (abv m c)) := by
  have e : (W3 (F := Ideal) m ρ c (Proc.devRef .tc main_v4) : Arr3) = (dat1 (F := Ideal) (V2 m ρ) c).arrAt 5 cfg1.N :=
    W3_arr m ρ c 5
  rw [e, finalOut, V2_x, V2_Wq, V2_bq, V2_K, V2_V]

end Cert.KernelIdeal.Val

end
-- ==== Proof.RefValue.lean ====
/-
  The reference's result is the attention normalised BEFORE the product with the values.

  The reference program is a chain of whole-array operations: three `dot_general`s over the feature axis, each
  with its bias broadcast along the rows (the query, key and value projections); a batched `dot_general` of the
  query and key rows (the scores); the row maximum, folded from `-∞` and once more compared with `-∞`; the
  exponential of the score less that maximum (the weights); the row sum of the weights from `0` (the denominator);
  the quotient; a batched `dot_general` of the quotients with the value rows; the residual. Read one operation at a
  time at an index, each stage is the specification's function of the same name.
-/
import proofs.«167128_g83305185673742_cont_9to1c4b_147_9_alg».proof.Proof.Gen.ReferenceIdeal.Read
import proofs.«167128_g83305185673742_cont_9to1c4b_147_9_alg».proof.Proof.Spec
import Idealize.ShloMosaic.PureOps.Reduce

noncomputable section

namespace Cert.ReferenceIdeal.RefValue

open Cert.ReferenceIdeal Cert.ReferenceIdeal.Gen Cert.ReferenceIdeal.Read Cert.Attn Cert.LibReal
open Idealize.ShloMosaic Idealize.ShloMosaic.ValueIdx
open scoped BigOperators

/-- An argument array [16, 2048, 160], a weight matrix [160, 160] and a bias [160] at the ideal values. -/
abbrev T3 : Type := (⟨S16x2048x160, .f32⟩ : BufTy).Contents (Elt Ideal)
abbrev T2 : Type := (⟨S160x160, .f32⟩ : BufTy).Contents (Elt Ideal)
abbrev T1 : Type := (⟨S160, .f32⟩ : BufTy).Contents (Elt Ideal)

variable (x0 x1 : T3) (x2 : T2) (x3 : T1) (x4 : T2) (x5 : T1) (x6 : T2) (x7 : T1)

/-! ## The three projections -/

/-- The query: `x · Wq + bq`. -/
theorem query_eq : val_main_v3 (F := Ideal) x0 x2 x3 = proj x0 x2 x3 := by
  funext t
  rw [val_main_v3_apply, val_main_v0_apply, val_main_v2_apply, val_main_v1_apply]
  have e1 : ∀ k, lidx_main_v0 t k = ix3 (t 0) (t 1) k := fun k => funext fun a => by match a with | ⟨0, _⟩ => rfl | ⟨1, _⟩ => rfl | ⟨2, _⟩ => rfl
  have e2 : ∀ k, ridx_main_v0 t k = ix2 k (t 2) := fun k => funext fun a => by match a with | ⟨0, _⟩ => rfl | ⟨1, _⟩ => rfl
  have e3 : idx_main_v1 (idx_main_v2 t) = ix1 (t 2) := funext fun a => by match a with | ⟨0, _⟩ => rfl
  rw [Ideal.addf_def]
  unfold proj
  exact congrArg₂ (· + ·)
    (Finset.sum_congr rfl fun k _ => congrArg₂ (· * ·) (congrArg _ (e1 k)) (congrArg _ (e2 k)))
    (congrArg _ e3)

/-- The key: `y · Wk + bk`. -/
theorem key_eq : val_main_v7 (F := Ideal) x1 x4 x5 = proj x1 x4 x5 := by
  funext t
  rw [val_main_v7_apply, val_main_v4_apply, val_main_v6_apply, val_main_v5_apply]
  have e1 : ∀ k, lidx_main_v4 t k = ix3 (t 0) (t 1) k := fun k => funext fun a => by match a with | ⟨0, _⟩ => rfl | ⟨1, _⟩ => rfl | ⟨2, _⟩ => rfl
  have e2 : ∀ k, ridx_main_v4 t k = ix2 k (t 2) := fun k => funext fun a => by match a with | ⟨0, _⟩ => rfl | ⟨1, _⟩ => rfl
  have e3 : idx_main_v5 (idx_main_v6 t) = ix1 (t 2) := funext fun a => by match a with | ⟨0, _⟩ => rfl
  rw [Ideal.addf_def]
  unfold proj
  exact congrArg₂ (· + ·)
    (Finset.sum_congr rfl fun k _ => congrArg₂ (· * ·) (congrArg _ (e1 k)) (congrArg _ (e2 k)))
    (congrArg _ e3)

/-- The value: `y · Wv + bv`. -/
theorem value_eq : val_main_v11 (F := Ideal) x1 x6 x7 = proj x1 x6 x7 := by
  funext t
  rw [val_main_v11_apply, val_main_v8_apply, val_main_v10_apply, val_main_v9_apply]
  have e1 : ∀ k, lidx_main_v8 t k = ix3 (t 0) (t 1) k := fun k => funext fun a => by match a with | ⟨0, _⟩ => rfl | ⟨1, _⟩ => rfl | ⟨2, _⟩ => rfl
  have e2 : ∀ k, ridx_main_v8 t k = ix2 k (t 2) := fun k => funext fun a => by match a with | ⟨0, _⟩ => rfl | ⟨1, _⟩ => rfl
  have e3 : idx_main_v9 (idx_main_v10 t) = ix1 (t 2) := funext fun a => by match a with | ⟨0, _⟩ => rfl
  rw [Ideal.addf_def]
  unfold proj
  exact congrArg₂ (· + ·)
    (Finset.sum_congr rfl fun k _ => congrArg₂ (· * ·) (congrArg _ (e1 k)) (congrArg _ (e2 k)))
    (congrArg _ e3)

/-! ## Scores, row maximum, weights, denominator -/

/-- The batched product of query and key rows is the score. -/
theorem score_eq (n : Fin 16) (i j : Fin 2048) :
    val_main_v12 (F := Ideal) x0 x1 x2 x3 x4 x5 (ix3 n i j) = score (proj x0 x2 x3) (proj x1 x4 x5) n i j := by
  rw [val_main_v12_apply, query_eq, key_eq]
  unfold score
  refine Finset.sum_congr rfl fun e _ => ?_
  have e1 : lidx_main_v12 (ix3 n i j) e = ix3 n i e := funext fun a => by match a with | ⟨0, _⟩ => rfl | ⟨1, _⟩ => rfl | ⟨2, _⟩ => rfl
  have e2 : ridx_main_v12 (ix3 n i j) e = ix3 n j e := funext fun a => by match a with | ⟨0, _⟩ => rfl | ⟨1, _⟩ => rfl | ⟨2, _⟩ => rfl
  rw [e1, e2]

/-- The reduced index `(n, i)` with key position `k` put back on the reduced axis is `(n, i, k)`. -/
theorem lift_row (h : S16x2048x2048.Reduces [2] S16x2048) (n : Fin 16) (i : Fin 2048) (k : Fin (S16x2048x2048.size 2)) :
    h.lift (ix2 n i) k = ix3 n i (⟨k.val, k.isLt⟩ : Fin 2048) := by
  funext c; apply Fin.ext
  fin_cases c <;> rfl

/-- The reduce with a maximum body from `-∞`, compared once more with `-∞`, is the row maximum. -/
theorem rowMax_eq (n : Fin 16) (i : Fin 2048) :
    val_main_v15 (F := Ideal) x0 x1 x2 x3 x4 x5 (ix2 n i) = rowMax (proj x0 x2 x3) (proj x1 x4 x5) n i := by
  have h : S16x2048x2048.Reduces [2] S16x2048 := by decide
  rw [val_main_v15_apply, val_main_v14_apply, val_main_cst_0_apply]
  unfold val_main_v13
  rw [Host.reduce_eq_fold_single (FloatOps.maximumf (F := Ideal) (φ := .f32)) _ _ _ h _]
  have hf : (val_main_v12 (F := Ideal) x0 x1 x2 x3 x4 x5 ∘ h.lift (ix2 n i))
      = fun j : Fin 2048 => score (proj x0 x2 x3) (proj x1 x4 x5) n i j :=
    funext fun j => by
      show val_main_v12 (F := Ideal) x0 x1 x2 x3 x4 x5 (h.lift (ix2 n i) j) = _
      rw [lift_row h n i j]
      exact score_eq x0 x1 x2 x3 x4 x5 n i _
  rw [hf, val_main_cst_apply]
  show max (Ideal.ofBits .f32 0xFF800000#32)
      (Finset.fold max (Ideal.ofBits .f32 0xFF800000#32) (fun j : Fin 2048 => score (proj x0 x2 x3) (proj x1 x4 x5) n i j) Finset.univ) = _
  rw [ofBits_neg_inf, max_eq_right bot_le]
  rfl

/-- The exponential of the score less the broadcast row maximum is the weight. -/
theorem weight_eq (n : Fin 16) (i j : Fin 2048) :
    val_main_v19 (F := Ideal) x0 x1 x2 x3 x4 x5 (ix3 n i j) = weight (proj x0 x2 x3) (proj x1 x4 x5) n i j := by
  rw [val_main_v19_apply, val_main_v18_apply, val_main_v17_apply, val_main_v16_apply]
  have e : idx_main_v16 (idx_main_v17 (ix3 n i j)) = ix2 n i := funext fun a => by match a with | ⟨0, _⟩ => rfl | ⟨1, _⟩ => rfl
  rw [e, rowMax_eq, score_eq]
  rfl

/-- The reduce with an add body from `0` over the key axis is the denominator. -/
theorem denom_eq (n : Fin 16) (i : Fin 2048) :
    val_main_v20 (F := Ideal) x0 x1 x2 x3 x4 x5 (ix2 n i) = denom (proj x0 x2 x3) (proj x1 x4 x5) n i := by
  rw [val_main_v20_apply, val_main_cst_1_apply]
  show Ideal.ofBits .f32 0x00000000#32 + _ = _
  rw [Ideal.ofBits_zero_f32, zero_add]
  unfold denom
  refine Finset.sum_congr rfl fun j _ => ?_
  have e : idx_main_v20 (ix2 n i) j = ix3 n i j := funext fun a => by match a with | ⟨0, _⟩ => rfl | ⟨1, _⟩ => rfl | ⟨2, _⟩ => rfl
  rw [e, weight_eq]

/-! ## The result -/

/-- The reference's result array: softmax rows times the value rows, plus the residual. -/
theorem result_eq :
    val_main_v25 (F := Ideal) x0 x1 x2 x3 x4 x5 x6 x7
      = attnEarly x0 (proj x0 x2 x3) (proj x1 x4 x5) (proj x1 x6 x7) := by
  funext t
  obtain ⟨n, i, e, rfl⟩ : ∃ (n : Fin 16) (i : Fin 2048) (e : Fin 160), t = ix3 n i e := ⟨t 0, t 1, t 2, eq_ix3 t⟩
  rw [val_main_v25_apply, val_main_v24_apply, value_eq]
  show (∑ j : Fin 2048, val_main_v23 (F := Ideal) x0 x1 x2 x3 x4 x5 (lidx_main_v24 (ix3 n i e) j)
        * proj x1 x6 x7 (ridx_main_v24 (ix3 n i e) j)) + x0 (ix3 n i e)
      = (∑ j : Fin 2048, Ideal.div (weight (proj x0 x2 x3) (proj x1 x4 x5) n i j) (denom (proj x0 x2 x3) (proj x1 x4 x5) n i)
        * proj x1 x6 x7 (ix3 n j e)) + x0 (ix3 n i e)
  refine congrArg (· + x0 (ix3 n i e)) (Finset.sum_congr rfl fun j _ => ?_)
  have e1 : lidx_main_v24 (ix3 n i e) j = ix3 n i j := funext fun a => by match a with | ⟨0, _⟩ => rfl | ⟨1, _⟩ => rfl | ⟨2, _⟩ => rfl
  have e2 : ridx_main_v24 (ix3 n i e) j = ix3 n j e := funext fun a => by match a with | ⟨0, _⟩ => rfl | ⟨1, _⟩ => rfl | ⟨2, _⟩ => rfl
  rw [e1, e2, val_main_v23_apply, val_main_v22_apply, val_main_v21_apply]
  have e3 : idx_main_v21 (idx_main_v22 (ix3 n i j)) = ix2 n i := funext fun a => by match a with | ⟨0, _⟩ => rfl | ⟨1, _⟩ => rfl
  rw [e3, weight_eq, denom_eq]
  rfl

end Cert.ReferenceIdeal.RefValue

end
-- ==== Proof.Law.lean ====
/-
  The two arrangements of the normalisation agree on finite inputs.

  Fix a query row. Its weights `w_j` are positive reals, its denominator `L = Σ_j w_j` a positive real, the value
  entries `v_j` reals. On the reals
      (Σ_j w_j · v_j) · (1 / L) = Σ_j (w_j / L) · v_j
  because the reciprocal factors out of a finite sum; the ideal quotient of two reals with a nonzero divisor is the
  real quotient, and the coercion of the reals into the extended reals commutes with finite sums and products.
  (At an infinite entry the two sides can differ: a product with an infinite factor does not distribute.)
-/
import proofs.«167128_g83305185673742_cont_9to1c4b_147_9_alg».proof.Proof.Spec

noncomputable section

namespace Cert.Attn

open Idealize.ShloMosaic Idealize.ShloMosaic.ValueIdx Cert.LibReal
open scoped BigOperators

/-- The f32 word `0x3F800000` denotes the real `1`. -/
theorem ofBits_one : Ideal.ofBits .f32 0x3F800000#32 = ((1 : ℝ) : EReal) := by
  simp [Ideal.ofBits, Ideal.ieee, -EReal.coe_mul] <;> norm_num

/-- The reciprocal of a nonzero real factors out of a finite sum of products, on the extended reals' finite part. -/
theorem sum_mul_recip {ι : Type} [Fintype ι] (w v : ι → EReal) (L : EReal)
    (hw : ∀ j, IsReal (w j)) (hv : ∀ j, IsReal (v j)) (hL : IsPosReal L) :
    (∑ j, w j * v j) * Ideal.div ((1 : ℝ) : EReal) L = ∑ j, Ideal.div (w j) L * v j := by
  obtain ⟨ℓ, hℓ, rfl⟩ := hL
  choose p hp using hw
  choose u hu using hv
  have hne : ℓ ≠ 0 := hℓ.ne'
  have e1 : (∑ j, w j * v j) = ((∑ j, p j * u j : ℝ) : EReal) :=
    sum_eq_coe_sum _ _ _ fun j _ => by rw [hp j, hu j, EReal.coe_mul]
  have e2 : (∑ j, Ideal.div (w j) (ℓ : EReal) * v j) = ((∑ j, (p j / ℓ) * u j : ℝ) : EReal) :=
    sum_eq_coe_sum _ _ _ fun j _ => by rw [hp j, hu j, div_coe_coe _ hne, EReal.coe_mul]
  rw [e1, e2, div_coe_coe _ hne, ← EReal.coe_mul, Finset.sum_mul]
  congr 1
  refine Finset.sum_congr rfl fun j _ => ?_
  rw [mul_one_div, div_mul_eq_mul_div]

/-- On finite queries, keys and values the attention normalised after the product is the attention normalised
    before it. -/
theorem attnLate_eq_attnEarly {x q k v : Arr3} (hq : AllReal q) (hk : AllReal k) (hv : AllReal v) :
    attnLate (Ideal.ofBits .f32 0x3F800000#32) x q k v = attnEarly x q k v := by
  funext t
  unfold attnLate attnEarly
  rw [ofBits_one]
  exact congrArg (· + x t)
    (sum_mul_recip (fun j => weight q k (t 0) (t 1) j) (fun j => v (ix3 (t 0) j (t 2))) (denom q k (t 0) (t 1))
      (fun j => (isPosReal_weight hq hk (t 0) (t 1) j).isReal) (fun j => hv _) (isPosReal_denom hq hk (t 0) (t 1)))

end Cert.Attn

end
-- ==== Proof.PreFinite.lean ====
/-
  The precondition says every input entry is a finite real.

  The printed precondition is the conjunction, over the eight input arrays, of "every entry's absolute value is below
  `+∞`": per array a compare of `|x|` with the word of `+∞`, reduced by `and` over every axis from `true`, and the
  eight results joined by `and`. At the ideal values an entry's absolute value is `max x (-x)`, the compare is the
  order's, and an extended real whose absolute value is below `+∞` is the image of a real.
-/
import proofs.«167128_g83305185673742_cont_9to1c4b_147_9_alg».proof.Pre_finite_inputs
import proofs.«167128_g83305185673742_cont_9to1c4b_147_9_alg».proof.Proof.Gen.Pre_finite_inputs
import proofs.«167128_g83305185673742_cont_9to1c4b_147_9_alg».proof.Proof.Spec
import Idealize.ShloMosaic.Lib.ReduceAll
import Idealize.ShloMosaic.Lib.ValueIdx

noncomputable section

namespace Cert.PreFinite

open Cert.Pre_finite_inputs Cert.Attn Cert.LibReal
open Idealize.ShloMosaic Idealize.ShloMosaic.ValueIdx

/-- The rank-0 shape has one index. -/
instance : Subsingleton S_.Idx := ⟨fun a b => funext fun d => d.elim0⟩

/-- An entry whose absolute value compares below the word of `+∞` is a finite real. -/
theorem isReal_of_cmp {x : EReal}
    (h : Ideal.cmp .olt (max x (-x)) (Ideal.ofBits .f32 0x7F800000#32) = 1#1) : IsReal x := by
  rw [ofBits_pos_inf] at h
  have h2 : BitVec.ofBool (decide (max x (-x) < (⊤ : EReal))) = 1#1 := h
  by_cases hlt : max x (-x) < (⊤ : EReal)
  · exact isReal_of_abs_lt_top hlt
  · rw [decide_eq_false hlt] at h2
    exact absurd h2 (by decide)

/-- One array's test: if "all entries have absolute value below `+∞`" came out true, every entry is a finite real. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    AllReal x := fun i =>
  isReal_of_cmp (Host.reduce_andi_all _ _ hr hu ix0 e i)

/-- The whole precondition: all eight inputs are arrays of finite reals. -/
theorem allReal_of_pre (a0 a1 : FVec Ideal S16x2048x160 .f32) (a2 : FVec Ideal S160x160 .f32) (a3 : FVec Ideal S160 .f32)
    (a4 : FVec Ideal S160x160 .f32) (a5 : FVec Ideal S160 .f32) (a6 : FVec Ideal S160x160 .f32) (a7 : FVec Ideal S160 .f32)
    (h : fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h ix0
  dsimp only [fn, fn_part1, fn_part2] at h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨allReal_of_all a0 _ _ _ r0, allReal_of_all a1 _ _ _ r1, allReal_of_all a2 _ _ _ r2, allReal_of_all a3 _ _ _ r3,
    allReal_of_all a4 _ _ _ r4, allReal_of_all a5 _ _ _ r5, allReal_of_all a6 _ _ _ r6, allReal_of_all a7 _ _ _ r7⟩

end Cert.PreFinite

end
-- ==== Proof.lean ====
/-
  Single-head cross-attention with a residual: a two-launch kernel against a plain reference.

  Both programs compute `softmax(q · kᵀ) · v + x` with `q = x · Wq + bq`, `k = y · Wk + bk`, `v = y · Wv + bv`
  over arrays `x`, `y` of shape [16, 2048, 160]. The kernel projects `k` and `v` in a first launch (blocks of 512
  rows) and, in a second launch, for each batch forms the query rows, the scores, each row's maximum, the
  exponentials of the scores less that maximum and their sum, multiplies the unnormalised weights with the value
  rows and only then multiplies by the reciprocal of the sum. The reference divides each weight by the sum first
  and multiplies with the value rows afterwards. Narrowing to bf16 is the identity at the ideal values, a matrix
  product into a zero accumulator is the plain sum, and a lane reduction is the plain fold.

  The two arrangements agree where every input is a finite real, which the precondition says: every weight is then a
  positive real and every row sum a positive real, so the reciprocal factors out of the finite sum (module `Law`).
  At an infinite entry they need not agree, so the precondition is used.

  The frames of the two kernel programs are generated; the reference's frame is its generated run with the result
  dropped; the idealization rewrote no operation. The kernel's result array is read off the regions' write-backs
  (modules `KernelPay`, `KernelValue`, over the run of `KernelRun`), the reference's off its operations (module
  `RefValue`).
-/
import proofs.«167128_g83305185673742_cont_9to1c4b_147_9_alg».proof.Defs
import proofs.«167128_g83305185673742_cont_9to1c4b_147_9_alg».proof.Proof.Gen.Kernel
import proofs.«167128_g83305185673742_cont_9to1c4b_147_9_alg».proof.Proof.Gen.Kernel.Skeleton
import proofs.«167128_g83305185673742_cont_9to1c4b_147_9_alg».proof.Proof.Gen.Kernel.Launch
import proofs.«167128_g83305185673742_cont_9to1c4b_147_9_alg».proof.Proof.Gen.Kernel.Points
import proofs.«167128_g83305185673742_cont_9to1c4b_147_9_alg».proof.Proof.Gen.Kernel.Frame
import proofs.«167128_g83305185673742_cont_9to1c4b_147_9_alg».proof.Proof.Gen.KernelIdeal
import proofs.«167128_g83305185673742_cont_9to1c4b_147_9_alg».proof.Proof.Gen.KernelIdeal.Skeleton
import proofs.«167128_g83305185673742_cont_9to1c4b_147_9_alg».proof.Proof.Gen.KernelIdeal.Launch
import proofs.«167128_g83305185673742_cont_9to1c4b_147_9_alg».proof.Proof.Gen.KernelIdeal.Points
import proofs.«167128_g83305185673742_cont_9to1c4b_147_9_alg».proof.Proof.Gen.KernelIdeal.Frame
import proofs.«167128_g83305185673742_cont_9to1c4b_147_9_alg».proof.Proof.Gen.ReferenceIdeal
import proofs.«167128_g83305185673742_cont_9to1c4b_147_9_alg».proof.Proof.Gen.ReferenceIdeal.Run
import proofs.«167128_g83305185673742_cont_9to1c4b_147_9_alg».proof.Proof.Gen.ReferenceIdeal.Read
import proofs.«167128_g83305185673742_cont_9to1c4b_147_9_alg».proof.Proof.Gen.Pre_finite_inputs
import proofs.«167128_g83305185673742_cont_9to1c4b_147_9_alg».proof.Proof.KernelRun
import proofs.«167128_g83305185673742_cont_9to1c4b_147_9_alg».proof.Proof.KernelValue
import proofs.«167128_g83305185673742_cont_9to1c4b_147_9_alg».proof.Proof.RefValue
import proofs.«167128_g83305185673742_cont_9to1c4b_147_9_alg».proof.Proof.Law
import proofs.«167128_g83305185673742_cont_9to1c4b_147_9_alg».proof.Proof.PreFinite
import Idealize.ShloMosaic.Adequacy
import Idealize.ShloMosaic.Init

noncomputable section

namespace Cert.Proof

open Idealize.ShloMosaic Idealize.ShloMosaic.TcCoe Idealize.SL.Sem Cert.Attn Cert.LibReal

/-- The word-level kernel runs and leaves its arguments: the generated frame. -/
theorem frame_k : Cert.frame_Kernel := fun m ρ _ => Cert.Kernel.Gen.frame m ρ

/-- The idealized kernel runs and leaves its arguments: the generated frame. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, all finite, both idealized programs end with the attention normalised
    after the product with the values: the kernel's result is that by its regions' write-backs, the reference's is
    the attention normalised before the product, and the two are one function on finite inputs. -/
theorem algebraic : Cert.algebraic_KernelIdeal_ReferenceIdeal := by
  intro m ρ m' ρ' hpre hagree
  refine ⟨fun c => attnLate (Ideal.ofBits .f32 0x3F800000#32) (Cert.KernelIdeal.Val.ax m c)
      (proj (Cert.KernelIdeal.Val.ax m c) (Cert.KernelIdeal.Val.aWq m c) (Cert.KernelIdeal.Val.abq m c))
      (proj (Cert.KernelIdeal.Val.ay m c) (Cert.KernelIdeal.Val.aWk m c) (Cert.KernelIdeal.Val.abk m c))
      (proj (Cert.KernelIdeal.Val.ay m c) (Cert.KernelIdeal.Val.aWv m c) (Cert.KernelIdeal.Val.abv m c)), ?_, ?_⟩
  · exact (θ_run Cert.KernelIdeal.defs _ _).mono
      (fun r h c => ⟨(h c).1.trans (Cert.KernelIdeal.Val.result_eq m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := Cert.PreFinite.allReal_of_pre _ _ _ _ _ _ _ _ (hpre c)
    obtain ⟨g0, g1, g2, g3, g4, g5, g6, g7⟩ := hagree c
    rw [Cert.ReferenceIdeal.Read.val_main_v25_eq, g0, g1, g2, g3, g4, g5, g6, g7, Cert.ReferenceIdeal.RefValue.result_eq]
    exact (attnLate_eq_attnEarly (allReal_proj h0 h2 h3) (allReal_proj h1 h4 h5) (allReal_proj h1 h6 h7)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
